-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S1024x1024 .f32) (main_arg2 : FVec F S1024x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S4x1024x1024 : Shape := ⟨3, ![4, 1024, 1024]⟩
abbrev S1x512x1024 : Shape := ⟨3, ![1, 512, 1024]⟩
abbrev S1x1024x1024 : Shape := ⟨3, ![1, 1024, 1024]⟩
abbrev S512x1024 : Shape := ⟨2, ![512, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4x4096x1024, .bf16⟩
  | .hbm, ⟨8, _⟩ => ⟨S4x1024x1024, .f32⟩
  | .hbm, ⟨9, _⟩ => ⟨S4x1024x1024, .bf16⟩
  | .hbm, ⟨10, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .f32⟩
  | .local _ .vmem, ⟨15, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S512x1024_S512x1024_S1024x1024_0_0_1_1_n_n_wf : DotDims.WF S512x1024 S512x1024 S1024x1024 [0] [0] [1] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x4096x1024.size a
  hwx0_4 : ∀ i : grid0.Coords, EltTy.bits .bf16 = 32 ∨ (Rect.block (s := S4x4096x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S4x1024x1024.size a
  hwx0_5 : ∀ i : grid0.Coords, EltTy.bits .f32 = 32 ∨ (Rect.block (s := S4x1024x1024) S1x1024x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .bf16 = 32 ∨ (Rect.block (s := S4x4096x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x1024x1024.size a
  hwx1_1 : ∀ i : grid1.Coords, EltTy.bits .bf16 = 32 ∨ (Rect.block (s := S4x1024x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x4096x1024.size a
  hwx1_2 : ∀ i : grid1.Coords, EltTy.bits .f32 = 32 ∨ (Rect.block (s := S4x4096x1024) S1x1024x1024.size (cc1_transform_2 i) (hinb1_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S_ : Shape := ⟨0, ![]⟩
abbrev S4x4096x4096 : Shape := ⟨3, ![4, 4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S_, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  dot_S4x4096x1024_S1024x1024_S4x4096x1024_2_0_01_1_n_n_wf : DotDims.WF S4x4096x1024 S1024x1024 S4x4096x1024 [2] [0] [0, 1] [1] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.KIRun0A.lean ====
/-
  The first pallas_call's body, run once per control case.

  The body of the first kernel (the three projections of a 512-row tile, the tile's share of kᵀ v added to
  an accumulator, q stored) branches once, on "this is the batch's first tile": there the accumulator is first
  reset. So it has two cases, and in each its effect on memory is a list of whole-buffer stores into the q
  block, the kᵀ v block and the accumulator. This module runs the body symbolically in each case.
-/
import proofs.«156419_j25701084299319_1_alg».proof.Proof.Gen.KernelIdeal.Launch
import proofs.«156419_j25701084299319_1_alg».proof.Proof.Gen.KernelIdeal.Skeleton
import proofs.«156419_j25701084299319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch condition -/

/-- "The point opens a batch": the body's one branch condition, from the grid coordinates. -/
abbrev cond0_0 (i : grid0.Coords) : Prop := (Scalar.cmpi .ne (Scalar.extui (Scalar.cmpi .eq (BitVec.ofNat 32 (i 1).val) 0#32)) 0#32) = 1#1
/-- It holds at the points that are multiples of 8 (eight tiles per batch). -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs at a point, and the accumulator -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1024 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0 : Memref sig .tc .vmem S1024x1024 .f32 := Memref.whole cc0_scratch0
/-- Views through which the contents of the written buffers are stated (any whole buffer of the shape would do). -/
abbrev VS0 : View sig .tc .vmem S1024x1024 .f32 := scM0.view
abbrev VO0_4 : View sig .tc .vmem S1x512x1024 .bf16 := (Memref.whole cc0_stg4_0 : Memref sig .tc .vmem S1x512x1024 .bf16).view
abbrev VO0_5 : View sig .tc .vmem S1x1024x1024 .f32 := (Memref.whole cc0_stg5_0 : Memref sig .tc .vmem S1x1024x1024 .f32).view

set_option maxHeartbeats 4000000 in
/-- The first kernel's body on whole staging memrefs, at a point that opens a batch (the reset branch taken): the four inputs at
    their contents, the two outputs at anything, the accumulator at anything. It runs to the
    continuation with the inputs as they were and each written buffer holding its stores, listed as pieces, last first;
    the pieces are found by the run itself. -/
noncomputable def kernelRun0_A (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond0_0 i)
    (x0 : Vec F S1x512x1024 .f32) (x1 x2 x3 : Vec F S1024x1024 .bf16) :
    Σ' (L4 : List (View.Piece (Elt F) S1x512x1024 .bf16)) (L5 : List (View.Piece (Elt F) S1x1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS)) -∗ K ⟨⟩))
          ⊢ wp frame (wpE (defs₀ (F := F)) Variants.none c none) E (cc0__qkv_kv_kernel i arg2 harg2 arg3 harg3 arg4 harg4 arg5 harg5 arg6 harg6 arg7 harg7 arg8 harg8) K } := by
  refine ⟨?_, ?_, ?_, fun E K => ?run⟩
  case run =>
    simp only [cc0__qkv_kv_kernel_eq_skeleton]; unfold cc0__qkv_kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS

end Cert.KernelIdeal.Hand

end
-- ==== Proof.KIRun0B.lean ====
/-
  The first pallas_call's body in its second control case: a later tile of a batch, the accumulator carried in.
-/
import proofs.«156419_j25701084299319_1_alg».proof.Proof.KIRun0A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The first kernel's body on whole staging memrefs, at a later point of a batch (the reset branch not taken): the four inputs at
    their contents, the two outputs at anything, the accumulator at what the point before left. It runs to the
    continuation with the inputs as they were and each written buffer holding its stores, listed as pieces, last first;
    the pieces are found by the run itself. -/
noncomputable def kernelRun0_B (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i)
    (x0 : Vec F S1x512x1024 .f32) (x1 x2 x3 : Vec F S1024x1024 .bf16) (xs : Vec F S1024x1024 .f32) :
    Σ' (L4 : List (View.Piece (Elt F) S1x512x1024 .bf16)) (L5 : List (View.Piece (Elt F) S1x1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS)) -∗ K ⟨⟩))
          ⊢ wp frame (wpE (defs₀ (F := F)) Variants.none c none) E (cc0__qkv_kv_kernel i arg2 harg2 arg3 harg3 arg4 harg4 arg5 harg5 arg6 harg6 arg7 harg7 arg8 harg8) K } := by
  refine ⟨?_, ?_, ?_, fun E K => ?run⟩
  case run =>
    simp only [cc0__qkv_kv_kernel_eq_skeleton]; unfold cc0__qkv_kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg8.eq_unread hfs
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS

end Cert.KernelIdeal.Hand

end
-- ==== Proof.KIRegion0.lean ====
/-
  The first pallas_call's half of the frame: what its buffers hold point by point, and the body obligation.

  The grid of the first pallas_call is 4 batches × 8 tiles, walked batch by batch. Per point the body leaves the
  q block (written back at every point), the kᵀ v block (a copy of the accumulator, written back when the batch
  ends) and the accumulator itself, which is reset at each batch's first tile and otherwise continues from what the
  point before left. `outsAt0` is that recursion; the pipeline's proof data state it, and the region's invariant
  carries the accumulator's contents from one point to the next.
-/
import proofs.«156419_j25701084299319_1_alg».proof.Proof.KIRun0B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered: a parameter, fixed by the run
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point, whether the point fetches it or the block index
    has not moved since it was fetched. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the buffers it writes -/

/-- Case A: the stores into the q block tile it. -/
theorem cover0_A_4 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond0_0 i) (x0 : Vec F S1x512x1024 .f32) (x1 x2 x3 : Vec F S1024x1024 .bf16) (y : S1x512x1024.Idx) :
    ∃ pc ∈ (kernelRun0_A c i arg2 harg2 arg3 harg3 arg4 harg4 arg5 harg5 arg6 harg6 arg7 harg7 arg8 harg8 hc0 x0 x1 x2 x3).1, y ∈ pc.1.set :=
  View.cover_of_tiledL (kernelRun0_A c i arg2 harg2 arg3 harg3 arg4 harg4 arg5 harg5 arg6 harg6 arg7 harg7 arg8 harg8 hc0 x0 x1 x2 x3).1 S1x512x1024.size (by sl_kernel_rfl) y
/-- Case A: what the q block's buffer holds after the body. -/
def out0_A_4 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond0_0 i) (x0 : Vec F S1x512x1024 .f32) (x1 x2 x3 : Vec F S1024x1024 .bf16) : Vec F S1x512x1024 .bf16 :=
  VO0_4.read (Elt F) (VO0_4.writes (Elt F) VO0_4.junk (kernelRun0_A c i arg2 harg2 arg3 harg3 arg4 harg4 arg5 harg5 arg6 harg6 arg7 harg7 arg8 harg8 hc0 x0 x1 x2 x3).1)
/-- Case A: the stores into the kᵀ v block tile it. -/
theorem cover0_A_5 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond0_0 i) (x0 : Vec F S1x512x1024 .f32) (x1 x2 x3 : Vec F S1024x1024 .bf16) (y : S1x1024x1024.Idx) :
    ∃ pc ∈ (kernelRun0_A c i arg2 harg2 arg3 harg3 arg4 harg4 arg5 harg5 arg6 harg6 arg7 harg7 arg8 harg8 hc0 x0 x1 x2 x3).2.1, y ∈ pc.1.set :=
  View.cover_of_tiledL (kernelRun0_A c i arg2 harg2 arg3 harg3 arg4 harg4 arg5 harg5 arg6 harg6 arg7 harg7 arg8 harg8 hc0 x0 x1 x2 x3).2.1 S1x1024x1024.size (by sl_kernel_rfl) y
/-- Case A: what the kᵀ v block's buffer holds after the body. -/
def out0_A_5 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond0_0 i) (x0 : Vec F S1x512x1024 .f32) (x1 x2 x3 : Vec F S1024x1024 .bf16) : Vec F S1x1024x1024 .f32 :=
  VO0_5.read (Elt F) (VO0_5.writes (Elt F) VO0_5.junk (kernelRun0_A c i arg2 harg2 arg3 harg3 arg4 harg4 arg5 harg5 arg6 harg6 arg7 harg7 arg8 harg8 hc0 x0 x1 x2 x3).2.1)
/-- Case A: the stores into the accumulator tile it. -/
theorem scover0_A (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond0_0 i) (x0 : Vec F S1x512x1024 .f32) (x1 x2 x3 : Vec F S1024x1024 .bf16) (y : S1024x1024.Idx) :
    ∃ pc ∈ (kernelRun0_A c i arg2 harg2 arg3 harg3 arg4 harg4 arg5 harg5 arg6 harg6 arg7 harg7 arg8 harg8 hc0 x0 x1 x2 x3).2.2.1, y ∈ pc.1.set :=
  View.cover_of_tiledL (kernelRun0_A c i arg2 harg2 arg3 harg3 arg4 harg4 arg5 harg5 arg6 harg6 arg7 harg7 arg8 harg8 hc0 x0 x1 x2 x3).2.2.1 S1024x1024.size (by sl_kernel_rfl) y
/-- Case A: what the accumulator holds after the body. -/
def sout0_A (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond0_0 i) (x0 : Vec F S1x512x1024 .f32) (x1 x2 x3 : Vec F S1024x1024 .bf16) : Vec F S1024x1024 .f32 :=
  VS0.read (Elt F) (VS0.writes (Elt F) VS0.junk (kernelRun0_A c i arg2 harg2 arg3 harg3 arg4 harg4 arg5 harg5 arg6 harg6 arg7 harg7 arg8 harg8 hc0 x0 x1 x2 x3).2.2.1)

/-- Case B: the stores into the q block tile it. -/
theorem cover0_B_4 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (x0 : Vec F S1x512x1024 .f32) (x1 x2 x3 : Vec F S1024x1024 .bf16) (xs : Vec F S1024x1024 .f32) (y : S1x512x1024.Idx) :
    ∃ pc ∈ (kernelRun0_B c i arg2 harg2 arg3 harg3 arg4 harg4 arg5 harg5 arg6 harg6 arg7 harg7 arg8 harg8 hc0 x0 x1 x2 x3 xs).1, y ∈ pc.1.set :=
  View.cover_of_tiledL (kernelRun0_B c i arg2 harg2 arg3 harg3 arg4 harg4 arg5 harg5 arg6 harg6 arg7 harg7 arg8 harg8 hc0 x0 x1 x2 x3 xs).1 S1x512x1024.size (by sl_kernel_rfl) y
/-- Case B: what the q block's buffer holds after the body. -/
def out0_B_4 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (x0 : Vec F S1x512x1024 .f32) (x1 x2 x3 : Vec F S1024x1024 .bf16) (xs : Vec F S1024x1024 .f32) : Vec F S1x512x1024 .bf16 :=
  VO0_4.read (Elt F) (VO0_4.writes (Elt F) VO0_4.junk (kernelRun0_B c i arg2 harg2 arg3 harg3 arg4 harg4 arg5 harg5 arg6 harg6 arg7 harg7 arg8 harg8 hc0 x0 x1 x2 x3 xs).1)
/-- Case B: the stores into the kᵀ v block tile it. -/
theorem cover0_B_5 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (x0 : Vec F S1x512x1024 .f32) (x1 x2 x3 : Vec F S1024x1024 .bf16) (xs : Vec F S1024x1024 .f32) (y : S1x1024x1024.Idx) :
    ∃ pc ∈ (kernelRun0_B c i arg2 harg2 arg3 harg3 arg4 harg4 arg5 harg5 arg6 harg6 arg7 harg7 arg8 harg8 hc0 x0 x1 x2 x3 xs).2.1, y ∈ pc.1.set :=
  View.cover_of_tiledL (kernelRun0_B c i arg2 harg2 arg3 harg3 arg4 harg4 arg5 harg5 arg6 harg6 arg7 harg7 arg8 harg8 hc0 x0 x1 x2 x3 xs).2.1 S1x1024x1024.size (by sl_kernel_rfl) y
/-- Case B: what the kᵀ v block's buffer holds after the body. -/
def out0_B_5 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (x0 : Vec F S1x512x1024 .f32) (x1 x2 x3 : Vec F S1024x1024 .bf16) (xs : Vec F S1024x1024 .f32) : Vec F S1x1024x1024 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 x3 xs).2.1)
/-- Case B: the stores into the accumulator tile it. -/
theorem scover0_B (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (x0 : Vec F S1x512x1024 .f32) (x1 x2 x3 : Vec F S1024x1024 .bf16) (xs : Vec F S1024x1024 .f32) (y : S1024x1024.Idx) :
    ∃ pc ∈ (kernelRun0_B c i arg2 harg2 arg3 harg3 arg4 harg4 arg5 harg5 arg6 harg6 arg7 harg7 arg8 harg8 hc0 x0 x1 x2 x3 xs).2.2.1, y ∈ pc.1.set :=
  View.cover_of_tiledL (kernelRun0_B c i arg2 harg2 arg3 harg3 arg4 harg4 arg5 harg5 arg6 harg6 arg7 harg7 arg8 harg8 hc0 x0 x1 x2 x3 xs).2.2.1 S1024x1024.size (by sl_kernel_rfl) y
/-- Case B: what the accumulator holds after the body. -/
def sout0_B (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (x0 : Vec F S1x512x1024 .f32) (x1 x2 x3 : Vec F S1024x1024 .bf16) (xs : Vec F S1024x1024 .f32) : Vec F S1024x1024 .f32 :=
  VS0.read (Elt F) (VS0.writes (Elt F) VS0.junk (kernelRun0_B c i arg2 harg2 arg3 harg3 arg4 harg4 arg5 harg5 arg6 harg6 arg7 harg7 arg8 harg8 hc0 x0 x1 x2 x3 xs).2.2.1)

/-! ## Point by point -/

/-- A point that opens a batch: the q block, the kᵀ v block, the accumulator. -/
def caseA (c : Dev nD) (t : Fin cfg0.N) (h : cond0_0 (grid0.coords t)) : Vec F S1x512x1024 .bf16 × Vec F S1x1024x1024 .f32 × Vec F S1024x1024 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) h (iblk0 V c 0 t) (iblk0 V c 1 t) (iblk0 V c 2 t) (iblk0 V c 3 t),
   out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) h (iblk0 V c 0 t) (iblk0 V c 1 t) (iblk0 V c 2 t) (iblk0 V c 3 t),
   sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) h (iblk0 V c 0 t) (iblk0 V c 1 t) (iblk0 V c 2 t) (iblk0 V c 3 t))

/-- A later point of a batch, the accumulator at `xs` before it. -/
def caseB (c : Dev nD) (t : Fin cfg0.N) (h : ¬cond0_0 (grid0.coords t)) (xs : Vec F S1024x1024 .f32) : Vec F S1x512x1024 .bf16 × Vec F S1x1024x1024 .f32 × Vec F S1024x1024 .f32 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) h (iblk0 V c 0 t) (iblk0 V c 1 t) (iblk0 V c 2 t) (iblk0 V c 3 t) xs,
   out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) h (iblk0 V c 0 t) (iblk0 V c 1 t) (iblk0 V c 2 t) (iblk0 V c 3 t) xs,
   sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) h (iblk0 V c 0 t) (iblk0 V c 1 t) (iblk0 V c 2 t) (iblk0 V c 3 t) xs)

/-- What the two output blocks' buffers and the accumulator hold after the body at position `n`: at a multiple of 8 the
    batch's first tile, else the next tile over what the point before left in the accumulator. -/
def outsAt0 (c : Dev nD) : (n : ℕ) → n < cfg0.N → Vec F S1x512x1024 .bf16 × Vec F S1x1024x1024 .f32 × Vec F S1024x1024 .f32
  | 0, hn => caseA V c ⟨0, hn⟩ ((hcond0_0 ⟨0, hn⟩).mpr (Nat.zero_mod _))
  | n + 1, hn =>
    if h0 : (n + 1) % 8 = 0 then caseA V c ⟨n + 1, hn⟩ ((hcond0_0 ⟨n + 1, hn⟩).mpr h0)
    else caseB V c ⟨n + 1, hn⟩ (fun h => h0 ((hcond0_0 ⟨n + 1, hn⟩).mp h)) (outsAt0 c n (Nat.lt_of_succ_lt hn)).2.2

theorem outsAt0_A (c : Dev nD) (t : Fin cfg0.N) (h0 : t.val % 8 = 0) :
    outsAt0 V c t.val t.isLt = caseA V c t ((hcond0_0 t).mpr h0) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = caseB V c t (fun h => h0 ((hcond0_0 t).mp h)) (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The region's invariant -/

/-- The second pallas_call's staging buffers, each at some contents: scoped buffers the first kernel never touches. -/
def restSc (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands the region: the accumulator at anything, the other call's staging buffers, the generator register. -/
theorem PhiA0_eq (c : Dev nD) :
    (Pipeline.ΦA spec0 c : sProp 𝕄)
      = iprop(iprop((∃ d, owns (c : Thread nD τ) scM0 fullShare d) ∗ restSc c) ∗ (∃ r, prngReg c r)) := by
  unfold Pipeline.ΦA restSc; rw [scopedRest0_eq]; simp only [scM0, owns_whole]; try rfl

/-- The invariant before position `n`: before the first point what the launch hands over; afterwards the same with the
    accumulator at what the point before left in it. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ restSc c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2.2) ∗ restSc c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2.2) ∗ restSc c) ∗ (∃ r, prngReg c r)) := by
  cases n with
  | zero => exact absurd rfl hz
  | succ n => rfl

/-! ## The pipeline's proof data -/

/-- The first pipeline's proof data on core `c`: its arrays as the region finds them; after the body at point `t` each
    input's buffer at its block, the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4800000 in
/-- The body at any point. The inputs' buffers hold their blocks; the point's position modulo 8 says which case it is in;
    the invariant hands the body the accumulator (at what the point before left, at anything before the first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5]
  by_cases h0 : t.val % 8 = 0
  · rw [outsAt0_A V c t h0]
    unfold caseA out0_A_4 out0_A_5 sout0_A; (try dsimp only)
    by_cases hz : t.val = 0
    · rw [PhiS_castSucc V c t, PhiS_zero V c _ _ hz, PhiA0_eq]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk0 V c 0 t) (iblk0 V c 1 t) (iblk0 V c 2 t) (iblk0 V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk0 V c 0 t) (iblk0 V c 1 t) (iblk0 V c 2 t) (iblk0 V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexists _; iexact HS
      iintro ⟨H0, H1, H2, H3, ⟨%e4, H4⟩, ⟨%e5, H5⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
  · rw [outsAt0_B V c t h0]
    unfold caseB out0_B_4 out0_B_5 sout0_B; (try dsimp only)
    by_cases hz : t.val = 0
    · exfalso; exact h0 (by rw [hz])
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk0 V c 0 t) (iblk0 V c 1 t) (iblk0 V c 2 t) (iblk0 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_B c _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's form back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS, Hrest⟩, Hg⟩
  isplitl [HS Hrest]
  · isplitl [HS]
    · iexists _; iexact HS
    iexact Hrest
  iexact Hg

end Cert.KernelIdeal.Hand

end
-- ==== Proof.KIRegion1.lean ====
/-
  The second pallas_call's half of the frame proof: at any contents `V` of the TensorCore's buffers when the
  call is entered, what each of its three windows holds at every grid point and what its body leaves there.

  The call runs over a grid of 4 batches × 4 row tiles. Window 0 is the `[1, 1024, 1024]` block of the stored
  projection at (batch, tile); window 1 is the `[1, 1024, 1024]` block of the accumulated product at the batch
  alone, so it is brought in only when the batch changes and is otherwise found as the previous point left it;
  window 2 is the output's `[1, 1024, 1024]` block at (batch, tile). The body reads the two input blocks whole,
  and writes the output block whole with one store, so what it leaves in the output's buffer is a closed function
  of the two input blocks (`out1_2`), whatever was there before.

  Everything is stated at an arbitrary float instance.
-/
import proofs.«156419_j25701084299319_1_alg».proof.Proof.Gen.KernelIdeal.Launch
import proofs.«156419_j25701084299319_1_alg».proof.Proof.Gen.KernelIdeal.Skeleton
import proofs.«156419_j25701084299319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 × 1024 extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at grid point `t`: the part of its array, as the call finds it, that the window's index
    map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's current buffer holds its block at every point, for any proof data over `V`'s array whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1's current buffer holds its block at every point, brought in there or not: where it is not brought in
    the batch has not changed, so the block found is the one wanted. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole `[1, 1024, 1024]` block as a rectangle: every access of the body is through it. -/
abbrev r1_0 : Rect S1x1024x1024 := Rect.unit (s := S1x1024x1024) ![0, 0, 0] S1x1024x1024.size inb_S1x1024x1024_S1x1024x1024_0_0_0

/-! ## What the body leaves in the output window's buffer -/

/-- The output buffer after the body, from the two input blocks: its one store, of the product of the blocks
    scaled, over the whole buffer. -/
def out1_2 (x0 x1 : Vec F S1x1024x1024 .bf16) : Vec F S1x1024x1024 .f32 :=
  View.canon [⟨r1_0, k1_pay1 (View.ld x0 r1_0) (View.ld x1 r1_0)⟩]

/-- The one store covers the buffer. -/
theorem cover1_2 (p0 : Vec F S1x1024x1024 .f32) (y : S1x1024x1024.Idx) :
    ∃ pc ∈ ([⟨r1_0, p0⟩] : List (View.Piece (Elt F) S1x1024x1024 .f32)), y ∈ pc.1.set :=
  View.cover_of_tiled [⟨r1_0, p0⟩] S1x1024x1024.size (by rfl) y

/-! ## The body's triple -/

set_option maxHeartbeats 1000000 in
/-- The body on whole buffers, the inputs' reading `x0`, `x1` and the output's holding anything, runs to the
    continuation with the inputs' as they were and the output's reading `out1_2 x0 x1`. -/
theorem sound_kernel1 (c : Dev nD) (E : Set ℕ) (i : grid1.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .f32) (harg4 : arg4.IsWhole)
    (x0 : Vec F S1x1024x1024 .bf16) (x1 : Vec F S1x1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__proj_kernel i arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the call on core `c`: the arrays as the call finds them; after the body at point `t` each
    input's buffer at its block and the output's at `out1_2` of the two input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The whole run of the two-call program: its buffers' contents at every boundary, and the run itself.

  @main is a stretch of host operations (the weights' format changes), the first pallas_call, one host operation
  (kᵀ v's format change), the second pallas_call. The contents of every unscoped buffer are followed through these
  four items as a fold from the launch memory: a host stretch applies its operations; a pallas_call leaves its
  arrays at what its write-backs leave and every other buffer alone. The run theorem says every weakly fair
  execution terminates with every unscoped buffer at the fold's last stage; the arguments are read back through the fold
  to their launch contents, and the result is the second call's output array.
-/
import proofs.«156419_j25701084299319_1_alg».proof.Proof.KIRegion0
import proofs.«156419_j25701084299319_1_alg».proof.Proof.KIRegion1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation writes one, the first call only reads `x` through an input
    window, and no other argument is an array of either call -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The first pallas_call as a segment of the run: entered with every unscoped buffer at the contents before it, left with
    them at the contents after it. Its arrays are split out of the unscoped buffers on entry and put back, at what the
    write-backs leave, on exit; the generator register goes into the invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call as a segment of the run: entered with every unscoped buffer at the contents before it, left with
    them at the contents after it. Its arrays are split out of the unscoped buffers on entry and put back, at what the
    write-backs leave, on exit; the generator register goes into the invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters, every weakly fair execution of @main terminates, nothing faulting, and
    every final state has every unscoped buffer at the fold's last stage `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The run with the result named: the second call's output array after all its write-backs. -/
theorem run_value : θ_run defs (onTc (τ := τ) (main (F := F))) ⟨m, fun _ => 0, ρ⟩ (fun r => ∀ c : Dev nD,
      r.2.mem ((c.tc : Thread nD τ).loc main_v5) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (W4_arr m ρ c 2),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.KIHost.lean ====
/-
  The host operations around the two calls, read at the ideal instance: a change of float format is the identity,
  so the first call finds the weights themselves and the second finds kᵀ v itself.
-/
import proofs.«156419_j25701084299319_1_alg».proof.Proof.KIRun
import Idealize.ShloMosaic.Lib.StableHlo.Run
import Idealize.ShloMosaic.Lib.ValueIdx

set_option maxRecDepth 16384

noncomputable section

namespace Cert.KernelIdeal.HandValue

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ) (ρ : Dev nD → PrngReg)

/-- The first call finds `x` as launched. -/
theorem V1_arg0 (c : Dev nD) : V1 m ρ c main_arg0 = m ((c : Thread nD τ).loc main_arg0) := by
  show StableHlo.after hostOps0 (W0 m ρ c) (Proc.devRef .tc main_arg0) = _
  after_results

/-- It finds `w_q` in the format-changed buffer: at the ideal instance the same numbers. -/
theorem V1_v0 (c : Dev nD) : (V1 m ρ c main_v0 : S1024x1024.Idx → EReal) = m ((c : Thread nD τ).loc main_arg1) := by
  show StableHlo.after hostOps0 (W0 m ρ c) (Proc.devRef .tc main_v0) = _
  after_results; rfl
theorem V1_v1 (c : Dev nD) : (V1 m ρ c main_v1 : S1024x1024.Idx → EReal) = m ((c : Thread nD τ).loc main_arg2) := by
  show StableHlo.after hostOps0 (W0 m ρ c) (Proc.devRef .tc main_v1) = _
  after_results; rfl
theorem V1_v2 (c : Dev nD) : (V1 m ρ c main_v2 : S1024x1024.Idx → EReal) = m ((c : Thread nD τ).loc main_arg3) := by
  show StableHlo.after hostOps0 (W0 m ρ c) (Proc.devRef .tc main_v2) = _
  after_results; rfl

/-- The second call finds `q` as the first call's write-backs left it. -/
theorem V3_v3_0 (c : Dev nD) : V3 m ρ c main_v3_0 = (dat0 (V1 m ρ) c).arrAt 4 cfg0.N := by
  show StableHlo.after hostOps1 (W2 m ρ c) (Proc.devRef .tc main_v3_0) = _
  after_results
  exact W2_arr m ρ c 4

/-- It finds kᵀ v in the format-changed buffer: the same numbers. -/
theorem V3_v4 (c : Dev nD) : (V3 m ρ c main_v4 : S4x1024x1024.Idx → EReal) = (dat0 (V1 m ρ) c).arrAt 5 cfg0.N := by
  show StableHlo.after hostOps1 (W2 m ρ c) (Proc.devRef .tc main_v4) = _
  after_results
  exact W2_arr m ρ c 5

end Cert.KernelIdeal.HandValue

end
-- ==== Proof.KIValue0a.lean ====
/-
  What the first pallas_call's body leaves, case by case, in terms of the body's pure payloads: the q block is
  the projection payload of the input block, the accumulator is the previous accumulator (zero at a batch's first
  tile) plus the tile's share of kᵀ v, and the kᵀ v block is a copy of the accumulator.
-/
import proofs.«156419_j25701084299319_1_alg».proof.Proof.KIRegion0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The offset of a whole rank-2 block. -/
theorem hz2 : (![0, 0] : Fin 2 → Nat) = fun _ => 0 := funext fun a => by fin_cases a <;> rfl
/-- The offset of a whole rank-3 block. -/
theorem hz3 : (![0, 0, 0] : Fin 3 → Nat) = fun _ => 0 := funext fun a => by fin_cases a <;> rfl

/-! ## A later tile of a batch -/

/-- The accumulator after a later tile: what it held plus the tile's share. -/
theorem sout0_B_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (x0 : Vec F S1x512x1024 .f32) (x1 x2 x3 : Vec F S1024x1024 .bf16) (xs : Vec F S1024x1024 .f32) :
    sout0_B c i arg2 harg2 arg3 harg3 arg4 harg4 arg5 harg5 arg6 harg6 arg7 harg7 arg8 harg8 hc0 x0 x1 x2 x3 xs = k0_pay4 x0 x2 x3 xs := by
  unfold sout0_B
  rw [View.read_writes_eq_canon _ _ _ (scover0_B c i arg2 harg2 arg3 harg3 arg4 harg4 arg5 harg5 arg6 harg6 arg7 harg7 arg8 harg8 hc0 x0 x1 x2 x3 xs)]
  unfold kernelRun0_B
  dsimp only
  sl_unfold_words
  rw [View.canon_unit_zero hz2]
  simp only [View.readAt_eq_ld, harg2.read_unread, harg3.read_unread, harg4.read_unread, harg5.read_unread, harg8.read_unread, View.ld_unit_zero (S := S1024x1024) hz2, View.ld_unit_zero (S := S1x512x1024) hz3, View.ld_unit_zero (S := S1x1024x1024) hz3, View.readCov_unit_zero (S := S1024x1024) _ hz2]

/-- The q block after a later tile: the projection of the input block. -/
theorem out0_B_4_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (x0 : Vec F S1x512x1024 .f32) (x1 x2 x3 : Vec F S1024x1024 .bf16) (xs : Vec F S1024x1024 .f32) :
    out0_B_4 c i arg2 harg2 arg3 harg3 arg4 harg4 arg5 harg5 arg6 harg6 arg7 harg7 arg8 harg8 hc0 x0 x1 x2 x3 xs = k0_pay5 x0 x1 := by
  unfold out0_B_4
  rw [View.read_writes_eq_canon _ _ _ (cover0_B_4 c i arg2 harg2 arg3 harg3 arg4 harg4 arg5 harg5 arg6 harg6 arg7 harg7 arg8 harg8 hc0 x0 x1 x2 x3 xs)]
  unfold kernelRun0_B
  dsimp only
  sl_unfold_words
  rw [View.canon_unit_zero hz3]
  simp only [View.readAt_eq_ld, harg2.read_unread, harg3.read_unread, harg4.read_unread, harg5.read_unread, harg8.read_unread, View.ld_unit_zero (S := S1024x1024) hz2, View.ld_unit_zero (S := S1x512x1024) hz3, View.ld_unit_zero (S := S1x1024x1024) hz3, View.readCov_unit_zero (S := S1024x1024) _ hz2]

/-- The kᵀ v block after a later tile: a copy of the accumulator just stored. -/
theorem out0_B_5_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (x0 : Vec F S1x512x1024 .f32) (x1 x2 x3 : Vec F S1024x1024 .bf16) (xs : Vec F S1024x1024 .f32) :
    out0_B_5 c i arg2 harg2 arg3 harg3 arg4 harg4 arg5 harg5 arg6 harg6 arg7 harg7 arg8 harg8 hc0 x0 x1 x2 x3 xs = k0_pay1 (k0_pay4 x0 x2 x3 xs) := by
  unfold out0_B_5
  rw [View.read_writes_eq_canon _ _ _ (cover0_B_5 c i arg2 harg2 arg3 harg3 arg4 harg4 arg5 harg5 arg6 harg6 arg7 harg7 arg8 harg8 hc0 x0 x1 x2 x3 xs)]
  unfold kernelRun0_B
  dsimp only
  sl_unfold_words
  rw [View.canon_unit_zero hz3]
  simp only [View.readAt_eq_ld, harg2.read_unread, harg3.read_unread, harg4.read_unread, harg5.read_unread, harg8.read_unread, View.ld_unit_zero (S := S1024x1024) hz2, View.ld_unit_zero (S := S1x512x1024) hz3, View.ld_unit_zero (S := S1x1024x1024) hz3, View.readCov_unit_zero (S := S1024x1024) _ hz2]

/-! ## A batch's first tile -/

/-- The accumulator after a batch's first tile: reset to zero, then the tile's share added. -/
theorem sout0_A_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond0_0 i) (x0 : Vec F S1x512x1024 .f32) (x1 x2 x3 : Vec F S1024x1024 .bf16) :
    sout0_A c i arg2 harg2 arg3 harg3 arg4 harg4 arg5 harg5 arg6 harg6 arg7 harg7 arg8 harg8 hc0 x0 x1 x2 x3 = k0_pay4 x0 x2 x3 (k0_pay2 (F := F)) := by
  unfold sout0_A
  rw [View.read_writes_eq_canon _ _ _ (scover0_A c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S1024x1024) hz2, View.readCov_unit_zero (S := S1024x1024) _ hz2]
  simp only [View.readAt_eq_ld, harg2.read_unread, harg3.read_unread, harg4.read_unread, harg5.read_unread, View.ld_unit_zero (S := S1024x1024) hz2, View.ld_unit_zero (S := S1x512x1024) hz3, View.ld_unit_zero (S := S1x1024x1024) hz3, View.readCov_unit_zero (S := S1024x1024) _ hz2]

/-- The q block after a batch's first tile: the projection of the input block. -/
theorem out0_A_4_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond0_0 i) (x0 : Vec F S1x512x1024 .f32) (x1 x2 x3 : Vec F S1024x1024 .bf16) :
    out0_A_4 c i arg2 harg2 arg3 harg3 arg4 harg4 arg5 harg5 arg6 harg6 arg7 harg7 arg8 harg8 hc0 x0 x1 x2 x3 = k0_pay5 x0 x1 := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz3]
  simp only [View.readAt_eq_ld, harg2.read_unread, harg3.read_unread, harg4.read_unread, harg5.read_unread, View.ld_unit_zero (S := S1024x1024) hz2, View.ld_unit_zero (S := S1x512x1024) hz3, View.ld_unit_zero (S := S1x1024x1024) hz3, View.readCov_unit_zero (S := S1024x1024) _ hz2]

/-- The kᵀ v block after a batch's first tile: a copy of the accumulator just stored. -/
theorem out0_A_5_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond0_0 i) (x0 : Vec F S1x512x1024 .f32) (x1 x2 x3 : Vec F S1024x1024 .bf16) :
    out0_A_5 c i arg2 harg2 arg3 harg3 arg4 harg4 arg5 harg5 arg6 harg6 arg7 harg7 arg8 harg8 hc0 x0 x1 x2 x3 = k0_pay1 (k0_pay4 x0 x2 x3 (k0_pay2 (F := F))) := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  sl_unfold_words
  rw [View.canon_unit_zero hz3]
  simp only [View.readAt_eq_ld, harg2.read_unread, harg3.read_unread, harg4.read_unread, harg5.read_unread, View.ld_unit_zero (S := S1024x1024) hz2, View.ld_unit_zero (S := S1x512x1024) hz3, View.ld_unit_zero (S := S1x1024x1024) hz3, View.readCov_unit_zero (S := S1024x1024) _ hz2, View.readCov_cons_toLoadRect]

/-! ## Point by point -/

/-- At every point the q block is the projection payload of the point's input block. -/
theorem outsAt0_q (c : Dev nD) (t : Fin cfg0.N) :
    (outsAt0 V c t.val t.isLt).1 = k0_pay5 (iblk0 V c 0 t) (iblk0 V c 1 t) := by
  by_cases h0 : t.val % 8 = 0
  · rw [outsAt0_A V c t h0]; unfold caseA; dsimp only
    exact out0_A_4_eq c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (iblk0 V c 0 t) (iblk0 V c 1 t) (iblk0 V c 2 t) (iblk0 V c 3 t)
  · rw [outsAt0_B V c t h0]; unfold caseB; dsimp only
    exact out0_B_4_eq c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.2

/-- At every point the kᵀ v block is a copy of the accumulator. -/
theorem outsAt0_kv (c : Dev nD) (t : Fin cfg0.N) :
    (outsAt0 V c t.val t.isLt).2.1 = k0_pay1 (outsAt0 V c t.val t.isLt).2.2 := by
  by_cases h0 : t.val % 8 = 0
  · rw [outsAt0_A V c t h0]; unfold caseA; dsimp only
    exact (out0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (iblk0 V c 0 t) (iblk0 V c 1 t) (iblk0 V c 2 t) (iblk0 V c 3 t)).trans
      (congrArg k0_pay1 (sout0_A_eq c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (iblk0 V c 0 t) (iblk0 V c 1 t) (iblk0 V c 2 t) (iblk0 V c 3 t)).symm)
  · rw [outsAt0_B V c t h0]; unfold caseB; dsimp only
    exact (out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.2).trans
      (congrArg k0_pay1 (sout0_B_eq c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.2).symm)

/-- At a batch's first tile the accumulator is zero plus the tile's share. -/
theorem outsAt0_acc_A (c : Dev nD) (t : Fin cfg0.N) (h0 : t.val % 8 = 0) :
    (outsAt0 V c t.val t.isLt).2.2 = k0_pay4 (iblk0 V c 0 t) (iblk0 V c 2 t) (iblk0 V c 3 t) (k0_pay2 (F := F)) := by
  rw [outsAt0_A V c t h0]; unfold caseA; dsimp only
  exact sout0_A_eq c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (iblk0 V c 0 t) (iblk0 V c 1 t) (iblk0 V c 2 t) (iblk0 V c 3 t)

/-- At a later tile the accumulator is what the point before left plus the tile's share. -/
theorem outsAt0_acc_B (c : Dev nD) (t : Fin cfg0.N) (h0 : ¬t.val % 8 = 0) :
    (outsAt0 V c t.val t.isLt).2.2 = k0_pay4 (iblk0 V c 0 t) (iblk0 V c 2 t) (iblk0 V c 3 t) (outsAt0 V c (t.val - 1) (Nat.lt_of_le_of_lt (Nat.sub_le _ _) t.isLt)).2.2 := by
  rw [outsAt0_B V c t h0]; unfold caseB; dsimp only
  exact sout0_B_eq c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.2

end Cert.KernelIdeal.Hand

end
-- ==== Proof.Spec.lean ====
/-
  The mathematics of softmax-free attention, stated once over coordinates.

  For an input `x : [4, 4096, 1024]` and three weight matrices `[1024, 1024]` put
  `q = x·w_q`, `k = x·w_k`, `v = x·w_v` (`proj`).  The reference forms, per batch `b`, the 4096×4096
  matrix `(q kᵀ)·γ` and multiplies it by `v` (`R3`); the kernel forms the 1024×1024 matrix `kᵀ v`
  (`kv`), accumulated over eight tiles of 512 rows (`kvTile`, `kvPre`), and multiplies `q` by it and
  then by `γ` (`G3`).  Over the reals the two are one function by associativity of the matrix
  product and distributivity; on the extended reals that needs every entry finite.
-/
import Idealize.ShloMosaic.PureOps.Ideal
import Idealize.ShloMosaic.Lib.ValueIdx

noncomputable section

open scoped BigOperators

namespace Cert.Attn

open Idealize.ShloMosaic Idealize.ShloMosaic.ValueIdx

/-- The activations' shape. -/
abbrev SX : Shape := ⟨3, ![4, 4096, 1024]⟩
/-- A weight matrix's shape. -/
abbrev SW : Shape := ⟨2, ![1024, 1024]⟩
/-- The per-batch 1024×1024 products' shape. -/
abbrev SK : Shape := ⟨3, ![4, 1024, 1024]⟩

/-- Row `(b, t)` of `x` against column `a` of `w`: one entry of a projection `x·w`. -/
def proj (x : SX.Idx → EReal) (w : SW.Idx → EReal) (b : Fin 4) (t : Fin 4096) (a : Fin 1024) : EReal :=
  ∑ k : Fin 1024, x (ix3 b t k) * w (ix2 k a)

/-- Row `s'` of tile `u` (tiles of 512 rows) as a row of the whole sequence. -/
def tileRow (u : Fin 8) (s' : Fin 512) : Fin 4096 := ⟨512 * u.val + s'.val, by have := u.isLt; have := s'.isLt; omega⟩

/-- Tile `u`'s share of `kᵀ v` in batch `b`: the sum over the tile's 512 rows. -/
def kvTile (x : SX.Idx → EReal) (wk wv : SW.Idx → EReal) (b : Fin 4) (u : Fin 8) (a j : Fin 1024) : EReal :=
  ∑ s' : Fin 512, proj x wk b (tileRow u s') a * proj x wv b (tileRow u s') j

/-- The first `n` tiles' shares added up. -/
def kvPre (x : SX.Idx → EReal) (wk wv : SW.Idx → EReal) (b : Fin 4) (n : ℕ) (a j : Fin 1024) : EReal :=
  ∑ u : Fin 8, if u.val < n then kvTile x wk wv b u a j else 0

/-- `kᵀ v` in batch `b`: the sum over all 4096 rows. -/
def kv (x : SX.Idx → EReal) (wk wv : SW.Idx → EReal) (b : Fin 4) (a j : Fin 1024) : EReal :=
  ∑ s : Fin 4096, proj x wk b s a * proj x wv b s j

/-- The kernel's arrangement: `(q · (kᵀ v)) · γ`. -/
def G3 (γ : EReal) (x : SX.Idx → EReal) (wq wk wv : SW.Idx → EReal) (b : Fin 4) (t : Fin 4096) (j : Fin 1024) : EReal :=
  (∑ a : Fin 1024, proj x wq b t a * kv x wk wv b a j) * γ

/-- The reference's arrangement: `((q kᵀ) · γ) · v`. -/
def R3 (γ : EReal) (x : SX.Idx → EReal) (wq wk wv : SW.Idx → EReal) (b : Fin 4) (t : Fin 4096) (j : Fin 1024) : EReal :=
  ∑ s : Fin 4096, ((∑ a : Fin 1024, proj x wq b t a * proj x wk b s a) * γ) * proj x wv b s j

/-- The kernel's arrangement as a whole array. -/
def G (γ : EReal) (x : SX.Idx → EReal) (wq wk wv : SW.Idx → EReal) : SX.Idx → EReal :=
  fun i => G3 γ x wq wk wv (i 0) (i 1) (i 2)

/-- The reference's arrangement as a whole array. -/
def R (γ : EReal) (x : SX.Idx → EReal) (wq wk wv : SW.Idx → EReal) : SX.Idx → EReal :=
  fun i => R3 γ x wq wk wv (i 0) (i 1) (i 2)

end Cert.Attn

end
-- ==== Proof.Payloads.lean ====
/-
  The two kernels' arithmetic read at one coordinate, at the exact (extended-real) instance.

  Each stored value of the kernel bodies is a composition of shape casts that keep row-major position, format
  changes that are the identity on extended reals, and matrix products into a zero accumulator.  Read at an
  index, a product of a 512×1024 block with a 1024×1024 matrix is the row-by-column sum; the product of two
  512×1024 blocks contracted over their rows is the column-by-column sum over the 512 rows; and the product of two
  1024×1024 matrices is again row by column.  From these the stored values are: the zero matrix, the accumulator
  copied out, the projection of the block by one weight matrix, the accumulator plus the block's share of `kᵀ v`,
  and `(q · KV) · 32`.
-/
import proofs.«156419_j25701084299319_1_alg».proof.Proof.Gen.KernelIdeal.Skeleton
import proofs.«156419_j25701084299319_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Attn.Pay

open Cert.KernelIdeal Cert.KernelIdeal.Gen Idealize.ShloMosaic Idealize.ShloMosaic.ValueIdx Idealize.SL.Sem

/-! ## The three matrix products at a coordinate -/

/-! ### A 512×1024 block times a 1024×1024 matrix -/

theorem lhsP_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhsP_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhsP_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhsP_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
/-- Row `p` of the block against column `c` of the matrix. -/
theorem mm_proj_apply {φ₁ φ₂ : FTy} (l : FVec Ideal S512x1024 φ₁) (r : FVec Ideal S1024x1024 φ₂) (p : Fin 512) (c : Fin 1024) :
    matmul (F := Ideal) dot_S512x1024_S1024x1024_S512x1024_1_0_0_1_n_n none l r (constant S512x1024 .f32 0x00000000#32) (ix2 p c)
      = ∑ k : Fin 1024, l (ix2 p k) * r (ix2 k c) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p c) ((contrEquiv1 dot_S512x1024_S1024x1024_S512x1024_1_0_0_1_n_n 1024 rfl rfl).symm k) = ix2 p k := funext fun a => Fin.ext (by
    match a with
    | ⟨0, _⟩ => exact lhsP_0 _ _
    | ⟨1, _⟩ => exact (lhsP_1 _ _).trans hk)
  have er : dot_S512x1024_S1024x1024_S512x1024_1_0_0_1_n_n.rhsIdx (ix2 p c) ((contrEquiv1 dot_S512x1024_S1024x1024_S512x1024_1_0_0_1_n_n 1024 rfl rfl).symm k) = ix2 k c := funext fun a => Fin.ext (by
    match a with
    | ⟨0, _⟩ => exact (rhsP_0 _ _).trans hk
    | ⟨1, _⟩ => exact rhsP_1 _ _)
  rw [el, er]

/-! ### Two 512×1024 blocks contracted over their 512 rows -/

theorem lhsT_0 (i : S1024x1024.Idx) (q : dot_S512x1024_S512x1024_S1024x1024_0_0_1_1_n_n.contr.Idx) :
    (dot_S512x1024_S512x1024_S1024x1024_0_0_1_1_n_n.lhsIdx i q 0).val = (q ⟨0, by decide⟩).val :=
  dot_S512x1024_S512x1024_S1024x1024_0_0_1_1_n_n.lhsIdx_val_of_single rfl i q
theorem lhsT_1 (i : S1024x1024.Idx) (q : dot_S512x1024_S512x1024_S1024x1024_0_0_1_1_n_n.contr.Idx) :
    (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl
theorem rhsT_0 (i : S1024x1024.Idx) (q : dot_S512x1024_S512x1024_S1024x1024_0_0_1_1_n_n.contr.Idx) :
    (dot_S512x1024_S512x1024_S1024x1024_0_0_1_1_n_n.rhsIdx i q 0).val = (q ⟨0, by decide⟩).val :=
  dot_S512x1024_S512x1024_S1024x1024_0_0_1_1_n_n.rhsIdx_val_of_single rfl i q
theorem rhsT_1 (i : S1024x1024.Idx) (q : dot_S512x1024_S512x1024_S1024x1024_0_0_1_1_n_n.contr.Idx) :
    (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl
/-- Column `p` of the first block against column `c` of the second, summed over the rows. -/
theorem mm_gram_apply {φ₁ φ₂ : FTy} (l : FVec Ideal S512x1024 φ₁) (r : FVec Ideal S512x1024 φ₂) (p : Fin 1024) (c : Fin 1024) :
    matmul (F := Ideal) dot_S512x1024_S512x1024_S1024x1024_0_0_1_1_n_n none l r (constant S1024x1024 .f32 0x00000000#32) (ix2 p c)
      = ∑ k : Fin 512, l (ix2 k p) * r (ix2 k c) := by
  simp only [matmul]
  rw [Ideal.matmul_constant_zero_apply, ← Equiv.sum_comp (contrEquiv1 dot_S512x1024_S512x1024_S1024x1024_0_0_1_1_n_n 512 rfl rfl).symm]
  refine Finset.sum_congr rfl fun k _ => ?_
  have hk := contrEquiv1_symm_val dot_S512x1024_S512x1024_S1024x1024_0_0_1_1_n_n 512 rfl rfl k
  have el : dot_S512x1024_S512x1024_S1024x1024_0_0_1_1_n_n.lhsIdx (ix2 p c) ((contrEquiv1 dot_S512x1024_S512x1024_S1024x1024_0_0_1_1_n_n 512 rfl rfl).symm k) = ix2 k p := funext fun a => Fin.ext (by
    match a with
    | ⟨0, _⟩ => exact (lhsT_0 _ _).trans hk
    | ⟨1, _⟩ => exact lhsT_1 _ _)
  have er : dot_S512x1024_S512x1024_S1024x1024_0_0_1_1_n_n.rhsIdx (ix2 p c) ((contrEquiv1 dot_S512x1024_S512x1024_S1024x1024_0_0_1_1_n_n 512 rfl rfl).symm k) = ix2 k c := funext fun a => Fin.ext (by
    match a with
    | ⟨0, _⟩ => exact (rhsT_0 _ _).trans hk
    | ⟨1, _⟩ => exact rhsT_1 _ _)
  rw [el, er]

/-! ### Two 1024×1024 matrices -/

theorem lhsS_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhsS_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhsS_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhsS_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl
/-- Row `p` of the first matrix against column `c` of the second. -/
theorem mm_sq_apply {φ₁ φ₂ : FTy} (l : FVec Ideal S1024x1024 φ₁) (r : FVec Ideal S1024x1024 φ₂) (p : Fin 1024) (c : Fin 1024) :
    matmul (F := Ideal) dot_S1024x1024_S1024x1024_S1024x1024_1_0_0_1_n_n none l r (constant S1024x1024 .f32 0x00000000#32) (ix2 p c)
      = ∑ k : Fin 1024, l (ix2 p k) * r (ix2 k c) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p c) ((contrEquiv1 dot_S1024x1024_S1024x1024_S1024x1024_1_0_0_1_n_n 1024 rfl rfl).symm k) = ix2 p k := funext fun a => Fin.ext (by
    match a with
    | ⟨0, _⟩ => exact lhsS_0 _ _
    | ⟨1, _⟩ => exact (lhsS_1 _ _).trans hk)
  have er : dot_S1024x1024_S1024x1024_S1024x1024_1_0_0_1_n_n.rhsIdx (ix2 p c) ((contrEquiv1 dot_S1024x1024_S1024x1024_S1024x1024_1_0_0_1_n_n 1024 rfl rfl).symm k) = ix2 k c := funext fun a => Fin.ext (by
    match a with
    | ⟨0, _⟩ => exact (rhsS_0 _ _).trans hk
    | ⟨1, _⟩ => exact rhsS_1 _ _)
  rw [el, er]

/-! ## The stored values at a coordinate -/

/-- The word `0x42000000` is the real number 32. -/
theorem ofBits_32 : Ideal.ofBits .f32 0x42000000#32 = ((32 : ℝ) : EReal) := by
  simp [Ideal.ofBits, Ideal.ieee, -EReal.coe_mul]; norm_num

/-- The value that clears the accumulator is zero everywhere. -/
theorem pay2_apply (a j : Fin 1024) : k0_pay2 (F := Ideal) (ix2 a j) = 0 := by
  unfold k0_pay2
  rw [shapeCast_self]
  exact Ideal.ofBits_zero_f32

/-- The accumulator copied out under a leading unit axis. -/
theorem pay1_apply (acc : Vec Ideal S1024x1024 .f32) (a j : Fin 1024) :
    k0_pay1 (F := Ideal) acc (ix3 (0 : Fin 1) a j) = acc (ix2 a j) := by
  unfold k0_pay1
  exact shapeCast_ab_1ab_apply acc _ 0 a j

/-- The block of `x` with its unit axis dropped and its format changed is the block itself. -/
theorem pay3_apply (xb : Vec Ideal S1x512x1024 .f32) (r : Fin 512) (k : Fin 1024) :
    k0_pay3 (F := Ideal) xb (ix2 r k) = xb (ix3 (0 : Fin 1) r k) := by
  unfold k0_pay3
  exact (truncf_apply (ψ := .bf16) _ bitsLt_bf16_f32 _).trans (shapeCast_1ab_ab_apply xb _ r k)

/-- The block projected by a weight matrix, at row `r` and column `a`. -/
theorem proj_block_apply (xb : Vec Ideal S1x512x1024 .f32) (w : FVec Ideal S1024x1024 .bf16) (r : Fin 512) (a : Fin 1024) :
    matmul (F := Ideal) dot_S512x1024_S1024x1024_S512x1024_1_0_0_1_n_n none (k0_pay3 xb) w
        (constant S512x1024 .f32 0x00000000#32) (ix2 r a)
      = ∑ k : Fin 1024, xb (ix3 (0 : Fin 1) r k) * w (ix2 k a) :=
  (mm_proj_apply _ _ r a).trans (Finset.sum_congr rfl fun k _ => by rw [pay3_apply])

/-- The stored `q` block: the projection of the block of `x` by `w_q`. -/
theorem pay5_apply (xb : Vec Ideal S1x512x1024 .f32) (w : Vec Ideal S1024x1024 .bf16) (r : Fin 512) (a : Fin 1024) :
    k0_pay5 (F := Ideal) xb w (ix3 (0 : Fin 1) r a) = ∑ k : Fin 1024, xb (ix3 (0 : Fin 1) r k) * w (ix2 k a) := by
  unfold k0_pay5
  refine (shapeCast_ab_1ab_apply _ _ 0 r a).trans ?_
  refine (truncf_apply (ψ := .bf16) _ bitsLt_bf16_f32 _).trans ?_
  rw [shapeCast_self]
  exact proj_block_apply xb w r a

/-- The accumulator's next value: what it held plus the block's share of `kᵀ v`. -/
theorem pay4_apply (xb : Vec Ideal S1x512x1024 .f32) (wk wv : Vec Ideal S1024x1024 .bf16) (acc : Vec Ideal S1024x1024 .f32) (a j : Fin 1024) :
    k0_pay4 (F := Ideal) xb wk wv acc (ix2 a j)
      = acc (ix2 a j) + ∑ s' : Fin 512, (∑ k : Fin 1024, xb (ix3 (0 : Fin 1) s' k) * wk (ix2 k a)) * (∑ k : Fin 1024, xb (ix3 (0 : Fin 1) s' k) * wv (ix2 k j)) := by
  unfold k0_pay4
  simp only [shapeCast_self]
  refine (addf_apply _ _ _).trans ?_
  refine congrArg (acc (ix2 a j) + ·) ?_
  refine (mm_gram_apply _ _ a j).trans ?_
  refine Finset.sum_congr rfl fun s' _ => ?_
  exact congrArg₂ (· * ·) ((truncf_apply (ψ := .bf16) _ bitsLt_bf16_f32 _).trans (proj_block_apply xb wk s' a))
    ((truncf_apply (ψ := .bf16) _ bitsLt_bf16_f32 _).trans (proj_block_apply xb wv s' j))

/-- The second kernel's stored block: `(q · KV) · 32`. -/
theorem k1_pay1_apply (qb kvb : Vec Ideal S1x1024x1024 .bf16) (r j : Fin 1024) :
    k1_pay1 (F := Ideal) qb kvb (ix3 (0 : Fin 1) r j)
      = (∑ a : Fin 1024, qb (ix3 (0 : Fin 1) r a) * kvb (ix3 (0 : Fin 1) a j)) * ((32 : ℝ) : EReal) := by
  unfold k1_pay1
  refine (shapeCast_ab_1ab_apply _ _ 0 r j).trans ?_
  refine (mulf_apply _ _ _).trans ?_
  refine congrArg₂ (· * ·) ?_ ?_
  · refine (mm_sq_apply _ _ r j).trans ?_
    exact Finset.sum_congr rfl fun a _ => by rw [shapeCast_1ab_ab_apply, shapeCast_1ab_ab_apply]
  · exact ofBits_32

end Cert.Attn.Pay

end
-- ==== Proof.Algebra.lean ====
/-
  Algebra of softmax-free attention: the tile-by-tile accumulation of `kᵀ v` adds up to the sum
  over all rows, and, when every entry is a real number, the reference's arrangement
  `((q kᵀ)·γ)·v` and the kernel's arrangement `(q·(kᵀ v))·γ` are one function.
-/
import proofs.«156419_j25701084299319_1_alg».proof.Proof.Spec
import Idealize.ShloMosaic.PureOps.Ideal
import Mathlib.Data.EReal.Basic
import Mathlib.Data.EReal.Operations
import Mathlib.Algebra.BigOperators.Fin
import Mathlib.Algebra.BigOperators.Ring.Finset
import Mathlib.Logic.Equiv.Fin.Basic
import Idealize.ShloMosaic.PureOps.Vector
import Idealize.ShloMosaic.Lib.ValueIdx
import Mathlib.Analysis.SpecialFunctions.Sqrt

noncomputable section

open scoped BigOperators

namespace Cert.Attn

open Idealize.ShloMosaic Idealize.ShloMosaic.ValueIdx

/-! ### The accumulation over tiles -/

/-- No tile added yet: the sum is zero. -/
theorem kvPre_zero (x : SX.Idx → EReal) (wk wv : SW.Idx → EReal) (b : Fin 4) (a j : Fin 1024) :
    kvPre x wk wv b 0 a j = 0 := by
  unfold kvPre
  simp

/-- One more tile: the sum grows by that tile's share. -/
theorem kvPre_succ (x : SX.Idx → EReal) (wk wv : SW.Idx → EReal) (b : Fin 4) (n : ℕ) (hn : n < 8)
    (a j : Fin 1024) :
    kvPre x wk wv b (n + 1) a j = kvPre x wk wv b n a j + kvTile x wk wv b ⟨n, hn⟩ a j := by
  unfold kvPre
  have hsplit : ∀ u : Fin 8,
      (if u.val < n + 1 then kvTile x wk wv b u a j else 0)
        = (if u.val < n then kvTile x wk wv b u a j else 0)
          + (if u = ⟨n, hn⟩ then kvTile x wk wv b u a j else 0) := by
    intro u
    by_cases h1 : u.val < n
    · have h2 : u ≠ ⟨n, hn⟩ := by
        intro h
        rw [h] at h1
        exact lt_irrefl _ h1
      have h3 : u.val < n + 1 := by omega
      rw [if_pos h1, if_pos h3, if_neg h2, add_zero]
    · by_cases h2 : u = ⟨n, hn⟩
      · have h3 : u.val < n + 1 := by rw [h2]; exact Nat.lt_succ_self n
        rw [if_neg h1, if_pos h3, if_pos h2, zero_add]
      · have h3 : ¬ u.val < n + 1 := by
          intro h
          apply h2
          apply Fin.ext
          show u.val = n
          omega
        rw [if_neg h1, if_neg h3, if_neg h2, add_zero]
  rw [Finset.sum_congr rfl (fun u _ => hsplit u), Finset.sum_add_distrib]
  congr 1
  rw [Finset.sum_ite_eq' Finset.univ (⟨n, hn⟩ : Fin 8) (fun u => kvTile x wk wv b u a j)]
  simp

/-- The rows of the eight tiles are exactly the 4096 rows, each once. -/
theorem sum_tileRow (f : Fin 4096 → EReal) :
    ∑ u : Fin 8, ∑ s' : Fin 512, f (tileRow u s') = ∑ s : Fin 4096, f s := by
  rw [← Fintype.sum_prod_type' (f := fun (u : Fin 8) (s' : Fin 512) => f (tileRow u s'))]
  refine Fintype.sum_equiv (finProdFinEquiv : Fin 8 × Fin 512 ≃ Fin 4096) _ _ (fun p => ?_)
  congr 1
  apply Fin.ext
  simp only [tileRow, finProdFinEquiv, Equiv.coe_fn_mk]
  omega

/-- All eight tiles added: the sum over all 4096 rows. -/
theorem kvPre_eight (x : SX.Idx → EReal) (wk wv : SW.Idx → EReal) (b : Fin 4) (a j : Fin 1024) :
    kvPre x wk wv b 8 a j = kv x wk wv b a j := by
  unfold kvPre kv
  have hall : ∀ u : Fin 8, (if u.val < 8 then kvTile x wk wv b u a j else 0) = kvTile x wk wv b u a j :=
    fun u => if_pos u.isLt
  rw [Finset.sum_congr rfl (fun u _ => hall u)]
  unfold kvTile
  exact sum_tileRow (fun s => proj x wk b s a * proj x wv b s j)

/-! ### Associativity, through the reals -/

/-- The embedding of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A projection of real arrays is the real projection. -/
theorem proj_coe (x : SX.Idx → ℝ) (w : SW.Idx → ℝ) (b : Fin 4) (t : Fin 4096) (a : Fin 1024) :
    proj (fun i => (x i : EReal)) (fun i => (w i : EReal)) b t a
      = ((∑ k : Fin 1024, x (ix3 b t k) * w (ix2 k a) : ℝ) : EReal) := by
  unfold proj
  rw [coe_sum]
  exact Finset.sum_congr rfl (fun k _ => (EReal.coe_mul _ _).symm)

/-- Over the reals: `Σ_s ((Σ_a q_a k_{s a})·g)·v_s = (Σ_a q_a·(Σ_s k_{s a} v_s))·g`. -/
theorem real_assoc {ι κ : Type} [Fintype ι] [Fintype κ] (q : κ → ℝ) (k : ι → κ → ℝ) (v : ι → ℝ) (g : ℝ) :
    ∑ s : ι, ((∑ a : κ, q a * k s a) * g) * v s = (∑ a : κ, q a * ∑ s : ι, k s a * v s) * g := by
  simp only [Finset.sum_mul, Finset.mul_sum]
  rw [Finset.sum_comm]
  exact Finset.sum_congr rfl (fun a _ => Finset.sum_congr rfl (fun s _ => by ring))

/-- With every entry finite the two arrangements agree entry by entry. -/
theorem R3_eq_G3 (γ : EReal) (x : SX.Idx → EReal) (wq wk wv : SW.Idx → EReal)
    (hγ : ∃ g : ℝ, γ = (g : EReal))
    (hx : ∀ i, ∃ r : ℝ, x i = (r : EReal)) (hq : ∀ i, ∃ r : ℝ, wq i = (r : EReal))
    (hk : ∀ i, ∃ r : ℝ, wk i = (r : EReal)) (hv : ∀ i, ∃ r : ℝ, wv i = (r : EReal))
    (b : Fin 4) (t : Fin 4096) (j : Fin 1024) :
    R3 γ x wq wk wv b t j = G3 γ x wq wk wv b t j := by
  obtain ⟨g, rfl⟩ := hγ
  choose xr hxr using hx
  choose qr hqr using hq
  choose kr hkr using hk
  choose vr hvr using hv
  obtain rfl : x = fun i => (xr i : EReal) := funext hxr
  obtain rfl : wq = fun i => (qr i : EReal) := funext hqr
  obtain rfl : wk = fun i => (kr i : EReal) := funext hkr
  obtain rfl : wv = fun i => (vr i : EReal) := funext hvr
  unfold R3 G3 kv
  simp only [proj_coe]
  simp only [← EReal.coe_mul, ← coe_sum]
  rw [real_assoc]

/-- With every entry finite the two arrangements are one array. -/
theorem R_eq_G (γ : EReal) (x : SX.Idx → EReal) (wq wk wv : SW.Idx → EReal)
    (hγ : ∃ g : ℝ, γ = (g : EReal))
    (hx : ∀ i, ∃ r : ℝ, x i = (r : EReal)) (hq : ∀ i, ∃ r : ℝ, wq i = (r : EReal))
    (hk : ∀ i, ∃ r : ℝ, wk i = (r : EReal)) (hv : ∀ i, ∃ r : ℝ, wv i = (r : EReal)) :
    R γ x wq wk wv = G γ x wq wk wv := by
  funext i
  exact R3_eq_G3 γ x wq wk wv hγ hx hq hk hv (i 0) (i 1) (i 2)

/-! ### The two scale constants -/

/-- The word `0x42000000` denotes the real `32`. -/
theorem gamma_kernel' : Ideal.ofBits .f32 0x42000000#32 = ((32 : ℝ) : EReal) := by
  simp [Ideal.ofBits, Ideal.ieee, -EReal.coe_mul]; norm_num

/-- The kernel's scale constant is `32`. -/
theorem gamma_kernel : (Scalar.ofBits (F := Ideal) .f32 0x42000000#32 : Ideal .f32) = ((32 : ℝ) : EReal) :=
  gamma_kernel'

/-- The word `0x44800000` denotes the real `1024`. -/
theorem ofBits_1024 : Ideal.ofBits .f32 0x44800000#32 = ((1024 : ℝ) : EReal) := by
  simp [Ideal.ofBits, Ideal.ieee, -EReal.coe_mul]; norm_num

/-- `√1024 = 32`. -/
theorem sqrt_1024 : Real.sqrt 1024 = 32 := by
  rw [show (1024 : ℝ) = 32 * 32 by norm_num]
  exact Real.sqrt_mul_self (by norm_num)

/-- The reference's scale, the square root of the constant `1024`, is `32`. -/
theorem gamma_ref :
    (Host.sqrt (F := Ideal) (constant (F := Ideal) (⟨0, ![]⟩ : Shape) .f32 0x44800000#32)) ValueIdx.ix0
      = ((32 : ℝ) : EReal) := by
  show FloatOps.hostUnary (F := Ideal) .sqrt (FloatOps.ofBits (F := Ideal) .f32 0x44800000#32) = _
  rw [Ideal.hostUnary_sqrt_def, Ideal.ofBits_def, ofBits_1024, Ideal.sqrt_coe, if_neg (by norm_num), sqrt_1024]

end Cert.Attn

end
-- ==== Proof.Spec2.lean ====
/-
  The intermediate arrays of the kernel's arrangement as whole-array functions: the stored projection `q = x·w_q`
  and the per-batch product `kᵀ v`.
-/
import proofs.«156419_j25701084299319_1_alg».proof.Proof.Spec

noncomputable section

open scoped BigOperators

namespace Cert.Attn

open Idealize.ShloMosaic Idealize.ShloMosaic.ValueIdx

/-- `q = x·w_q` as an array of the activations' shape. -/
def Qarr (x : SX.Idx → EReal) (wq : SW.Idx → EReal) : SX.Idx → EReal :=
  fun i => proj x wq (i 0) (i 1) (i 2)

/-- `kᵀ v`, one 1024×1024 matrix per batch. -/
def KVarr (x : SX.Idx → EReal) (wk wv : SW.Idx → EReal) : SK.Idx → EReal :=
  fun i => kv x wk wv (i 0) (i 1) (i 2)

/-- The second call's result from ANY stored `q` and per-batch matrices: row of `q` against column of the matrix, times `γ`. -/
def Yarr (γ : EReal) (Q : SX.Idx → EReal) (KV : SK.Idx → EReal) : SX.Idx → EReal :=
  fun i => (∑ a : Fin 1024, Q (ix3 (i 0) (i 1) a) * KV (ix3 (i 0) a (i 2))) * γ

/-- With `q` and `kᵀ v` in place the second call's result is the kernel's arrangement `G`. -/
theorem Yarr_eq_G (γ : EReal) (x : SX.Idx → EReal) (wq wk wv : SW.Idx → EReal) :
    Yarr γ (Qarr x wq) (KVarr x wk wv) = G γ x wq wk wv := rfl

end Cert.Attn

end
-- ==== Proof.KIValue0b.lean ====
/-
  What the first pallas_call leaves in its two result arrays, as whole-array functions of its input arrays, at the
  exact (extended-real) instance.

  The grid is 4 batches × 8 tiles of 512 rows; point `t` is tile `t % 8` of batch `t / 8`.  The block of `x` the
  point reads is rows `512·(t % 8) …` of batch `t / 8`; the three weight matrices are read whole.  The q block a
  point writes back is the projection of its rows by `w_q`, which is that block of `x·w_q`.  The accumulator after
  the point holds the sum of the shares of `kᵀ v` of the batch's tiles so far (by induction along the batch: the
  first tile starts from zero, each later one adds its share to what the tile before left); at the batch's last
  tile this is all of `kᵀ v`, and it is that copy which is written back.  Every index of either array lies in the
  block of some point that writes back, so the arrays end as `x·w_q` and `kᵀ v`.
-/
import proofs.«156419_j25701084299319_1_alg».proof.Proof.KIValue0a
import proofs.«156419_j25701084299319_1_alg».proof.Proof.Payloads
import proofs.«156419_j25701084299319_1_alg».proof.Proof.Algebra
import proofs.«156419_j25701084299319_1_alg».proof.Proof.Spec2
import Idealize.ShloMosaic.Lib.Pipeline.Value

set_option maxRecDepth 16384

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand
open Cert.Attn
open scoped BigOperators

variable (V : (c : Dev nD) → (b : Ref sig .tc) → Buf (Elt Ideal) ((c : Thread nD τ).loc b))

/-! ## The input arrays as the call finds them -/

/-- The activations. -/
abbrev Xof (c : Dev nD) : SX.Idx → EReal := V c main_arg0
/-- The three weight matrices. -/
abbrev WQof (c : Dev nD) : SW.Idx → EReal := V c main_v0
abbrev WKof (c : Dev nD) : SW.Idx → EReal := V c main_v1
abbrev WVof (c : Dev nD) : SW.Idx → EReal := V c main_v2

/-! ## The grid: point `t` is tile `t % 8` of batch `t / 8` -/

theorem N32 : cfg0.N = 32 := N_0

/-- The batch of position `n`. -/
def bN (n : ℕ) (hn : n < cfg0.N) : Fin 4 := ⟨n / 8, by have := N32; omega⟩
/-- The batch of a point. -/
abbrev bOf (t : Fin cfg0.N) : Fin 4 := bN t.val t.isLt
/-- The tile of a point. -/
def uOf (t : Fin cfg0.N) : Fin 8 := ⟨t.val % 8, Nat.mod_lt _ (by decide)⟩

/-- The windows' block indices at every point, decided over the grid: the block of `x` and the q block at
    (batch, tile, 0), the weight matrices at (0, 0), the `kᵀ v` block at (batch, 0, 0). -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = t.val % 8 ∧ win0_4.index t (2 : Fin 3) = 0
    ∧ win0_5.index t (0 : Fin 3) = t.val / 8 ∧ win0_5.index t (1 : Fin 3) = 0 ∧ win0_5.index t (2 : Fin 3) = 0 :=
  (by decide +kernel : ∀ t : Fin grid0.N, _)

/-! ## The blocks read, at a coordinate -/

/-- The block of `x` at point `t`: row `r` of the block is row `r` of tile `t % 8` in batch `t / 8`. -/
theorem iblk0_0_apply (c : Dev nD) (t : Fin cfg0.N) (r : Fin 512) (k : Fin 1024) :
    @Eq EReal (iblk0 V c 0 t (ix3 (0 : Fin 1) r k)) (Xof V c (ix3 (bOf t) (tileRow (uOf t) r) k)) := by
  obtain ⟨e0, e1, e2, -⟩ := idx_facts t
  unfold iblk0
  rw [View.read_apply]
  show (V c main_arg0 : S4x4096x1024.Idx → EReal) _ = (V c main_arg0 : S4x4096x1024.Idx → EReal) _
  congr 1
  funext a; apply Fin.ext
  match a with
  | ⟨0, _⟩ => show win0_0.index t (0 : Fin 3) * 1 + 1 * 0 = t.val / 8; rw [e0]; omega
  | ⟨1, _⟩ => show win0_0.index t (1 : Fin 3) * 512 + 1 * r.val = 512 * (t.val % 8) + r.val; rw [e1]; omega
  | ⟨2, _⟩ => show win0_0.index t (2 : Fin 3) * 1024 + 1 * k.val = k.val; rw [e2]; omega

/-- The weight matrices are read whole at every point. -/
theorem iblk0_1_apply (c : Dev nD) (t : Fin cfg0.N) (k a : Fin 1024) :
    @Eq EReal (iblk0 V c 1 t (ix2 k a)) (WQof V c (ix2 k a)) := by
  obtain ⟨-, -, -, e0, e1, -⟩ := idx_facts t
  unfold iblk0
  rw [View.read_apply]
  show (V c main_v0 : S1024x1024.Idx → EReal) _ = (V c main_v0 : S1024x1024.Idx → EReal) _
  congr 1
  funext d; apply Fin.ext
  match d with
  | ⟨0, _⟩ => show win0_1.index t (0 : Fin 2) * 1024 + 1 * k.val = k.val; rw [e0]; omega
  | ⟨1, _⟩ => show win0_1.index t (1 : Fin 2) * 1024 + 1 * a.val = a.val; rw [e1]; omega

theorem iblk0_2_apply (c : Dev nD) (t : Fin cfg0.N) (k a : Fin 1024) :
    @Eq EReal (iblk0 V c 2 t (ix2 k a)) (WKof V c (ix2 k a)) := by
  obtain ⟨-, -, -, -, -, e0, e1, -⟩ := idx_facts t
  unfold iblk0
  rw [View.read_apply]
  show (V c main_v1 : S1024x1024.Idx → EReal) _ = (V c main_v1 : S1024x1024.Idx → EReal) _
  congr 1
  funext d; apply Fin.ext
  match d with
  | ⟨0, _⟩ => show win0_2.index t (0 : Fin 2) * 1024 + 1 * k.val = k.val; rw [e0]; omega
  | ⟨1, _⟩ => show win0_2.index t (1 : Fin 2) * 1024 + 1 * a.val = a.val; rw [e1]; omega

theorem iblk0_3_apply (c : Dev nD) (t : Fin cfg0.N) (k a : Fin 1024) :
    @Eq EReal (iblk0 V c 3 t (ix2 k a)) (WVof V c (ix2 k a)) := by
  obtain ⟨-, -, -, -, -, -, -, e0, e1, -⟩ := idx_facts t
  unfold iblk0
  rw [View.read_apply]
  show (V c main_v2 : S1024x1024.Idx → EReal) _ = (V c main_v2 : S1024x1024.Idx → EReal) _
  congr 1
  funext d; apply Fin.ext
  match d with
  | ⟨0, _⟩ => show win0_3.index t (0 : Fin 2) * 1024 + 1 * k.val = k.val; rw [e0]; omega
  | ⟨1, _⟩ => show win0_3.index t (1 : Fin 2) * 1024 + 1 * a.val = a.val; rw [e1]; omega

/-! ## The accumulator in closed form -/

/-- The share of `kᵀ v` a point adds: the sum over its 512 rows of (row · column `a` of `w_k`) times
    (row · column `j` of `w_v`) is the tile's share at `(a, j)`. -/
theorem tile_term (c : Dev nD) (t : Fin cfg0.N) (xb : Vec Ideal S1x512x1024 .f32) (wk wv : Vec Ideal S1024x1024 .bf16)
    (hxb : xb = iblk0 V c 0 t) (hwk : wk = iblk0 V c 2 t) (hwv : wv = iblk0 V c 3 t) (a j : Fin 1024) :
    (∑ s' : Fin 512, (∑ k : Fin 1024, xb (ix3 (0 : Fin 1) s' k) * wk (ix2 k a)) * (∑ k : Fin 1024, xb (ix3 (0 : Fin 1) s' k) * wv (ix2 k j)))
      = kvTile (Xof V c) (WKof V c) (WVof V c) (bOf t) (uOf t) a j := by
  subst hxb hwk hwv
  unfold kvTile proj
  refine Finset.sum_congr rfl fun s' _ => ?_
  refine congrArg₂ (· * ·) (Finset.sum_congr rfl fun k _ => ?_) (Finset.sum_congr rfl fun k _ => ?_)
  · exact congrArg₂ (· * ·) (iblk0_0_apply V c t s' k) (iblk0_2_apply V c t k a)
  · exact congrArg₂ (· * ·) (iblk0_0_apply V c t s' k) (iblk0_3_apply V c t k j)

/-- After position `n` the accumulator holds the shares of the batch's tiles up to and including this one. -/
theorem acc_closed (c : Dev nD) : ∀ (n : ℕ) (hn : n < cfg0.N) (a j : Fin 1024),
    @Eq EReal ((outsAt0 V c n hn).2.2 (ix2 a j))
      (kvPre (Xof V c) (WKof V c) (WVof V c) (bN n hn) (n % 8 + 1) a j) := by
  intro n
  induction n using Nat.strong_induction_on with
  | _ n ih =>
    intro hn a j
    by_cases h0 : n % 8 = 0
    · -- the batch's first tile: zero plus its share
      refine (congrFun (outsAt0_acc_A V c ⟨n, hn⟩ h0) (ix2 a j)).trans ?_
      refine (Pay.pay4_apply _ _ _ _ a j).trans ?_
      refine (congrArg₂ (· + ·) (Pay.pay2_apply a j) (tile_term V c ⟨n, hn⟩ _ _ _ rfl rfl rfl a j)).trans ?_
      have hu : uOf ⟨n, hn⟩ = ⟨0, by decide⟩ := Fin.ext h0
      have e : n % 8 + 1 = 0 + 1 := by rw [h0]
      rw [hu, e, kvPre_succ _ _ _ _ 0 (by decide) a j, kvPre_zero]
    · -- a later tile: what the tile before left plus its share
      have hpos : 0 < n := Nat.pos_of_ne_zero fun h => h0 (by rw [h])
      have hn' : n - 1 < cfg0.N := Nat.lt_of_le_of_lt (Nat.sub_le _ _) hn
      refine (congrFun (outsAt0_acc_B V c ⟨n, hn⟩ h0) (ix2 a j)).trans ?_
      refine (Pay.pay4_apply _ _ _ _ a j).trans ?_
      refine (congrArg₂ (· + ·) (ih (n - 1) (by omega) hn' a j) (tile_term V c ⟨n, hn⟩ _ _ _ rfl rfl rfl a j)).trans ?_
      have eb : bN (n - 1) hn' = bN n hn := Fin.ext (by show (n - 1) / 8 = n / 8; omega)
      have en : (n - 1) % 8 + 1 = n % 8 := by omega
      rw [eb, en, kvPre_succ _ _ _ (bN n hn) (n % 8) (Nat.mod_lt _ (by decide)) a j]
      rfl

/-! ## What the points write back -/

/-- An index of the q block at point `t`, as an index of the whole array. -/
theorem emb4 (t : Fin cfg0.N) (r : Fin 512) (a : Fin 1024) :
    ((cfg0.win 4).blk t).view.emb (ix3 (0 : Fin 1) r a) = (ix3 (bOf t) (tileRow (uOf t) r) a : S4x4096x1024.Idx) := by
  obtain ⟨-, -, -, -, -, -, -, -, -, e0, e1, e2, -⟩ := idx_facts t
  funext d; apply Fin.ext
  match d with
  | ⟨0, _⟩ => show win0_4.index t (0 : Fin 3) * 1 + 1 * 0 = t.val / 8; rw [e0]; omega
  | ⟨1, _⟩ => show win0_4.index t (1 : Fin 3) * 512 + 1 * r.val = 512 * (t.val % 8) + r.val; rw [e1]; omega
  | ⟨2, _⟩ => show win0_4.index t (2 : Fin 3) * 1024 + 1 * a.val = a.val; rw [e2]; omega

/-- An index of the `kᵀ v` block at point `t`, as an index of the whole array. -/
theorem emb5 (t : Fin cfg0.N) (a j : Fin 1024) :
    ((cfg0.win 5).blk t).view.emb (ix3 (0 : Fin 1) a j) = (ix3 (bOf t) a j : S4x1024x1024.Idx) := by
  obtain ⟨-, -, -, -, -, -, -, -, -, -, -, -, e0, e1, e2⟩ := idx_facts t
  funext d; apply Fin.ext
  match d with
  | ⟨0, _⟩ => show win0_5.index t (0 : Fin 3) * 1 + 1 * 0 = t.val / 8; rw [e0]; omega
  | ⟨1, _⟩ => show win0_5.index t (1 : Fin 3) * 1024 + 1 * a.val = a.val; rw [e1]; omega
  | ⟨2, _⟩ => show win0_5.index t (2 : Fin 3) * 1024 + 1 * j.val = j.val; rw [e2]; omega

/-- The q block a point writes back is its block of `x·w_q`, entry by entry. -/
theorem flushed4_apply (c : Dev nD) (t : Fin cfg0.N) (r : Fin 512) (a : Fin 1024) :
    @Eq EReal ((dat0 V c).flushed 4 t (ix3 (0 : Fin 1) r a))
      (((cfg0.win 4).blk t).view.read (Elt Ideal) (Qarr (Xof V c) (WQof V c)) (ix3 (0 : Fin 1) r a)) := by
  rw [View.read_apply]
  show @Eq EReal ((dat0 V c).after 4 t (ix3 (0 : Fin 1) r a))
    (Qarr (Xof V c) (WQof V c) (((cfg0.win 4).blk t).view.emb (ix3 (0 : Fin 1) r a)))
  rw [emb4, after0_4, outsAt0_q]
  refine (Pay.pay5_apply _ _ r a).trans ?_
  show _ = proj (Xof V c) (WQof V c) (bOf t) (tileRow (uOf t) r) a
  unfold proj
  exact Finset.sum_congr rfl fun k _ => congrArg₂ (· * ·) (iblk0_0_apply V c t r k) (iblk0_1_apply V c t k a)

theorem flushed4_eq (c : Dev nD) (t : Fin cfg0.N) :
    (dat0 V c).flushed 4 t = ((cfg0.win 4).blk t).view.read (Elt Ideal) (Qarr (Xof V c) (WQof V c)) := by
  funext y
  have hy : y = ix3 (n0 := 1) (n1 := 512) (n2 := 1024) 0 (y 1) (y 2) := by
    funext d
    match d with
    | ⟨0, _⟩ => exact Fin.ext (by have h : (y 0).val < 1 := (y 0).isLt; show (y 0).val = 0; omega)
    | ⟨1, _⟩ => rfl
    | ⟨2, _⟩ => rfl
  rw [hy]
  exact flushed4_apply V c t (y 1) (y 2)

/-- At a batch's last tile the `kᵀ v` block written back is that batch's `kᵀ v`, entry by entry. -/
theorem flushed5_apply (c : Dev nD) (t : Fin cfg0.N) (hf : (cfg0.win 5).flush t = true) (a j : Fin 1024) :
    @Eq EReal ((dat0 V c).flushed 5 t (ix3 (0 : Fin 1) a j))
      (((cfg0.win 5).blk t).view.read (Elt Ideal) (KVarr (Xof V c) (WKof V c) (WVof V c)) (ix3 (0 : Fin 1) a j)) := by
  have h7 : t.val % 8 = 7 := (flush0_5 t).mp hf
  rw [View.read_apply]
  show @Eq EReal ((dat0 V c).after 5 t (ix3 (0 : Fin 1) a j))
    (KVarr (Xof V c) (WKof V c) (WVof V c) (((cfg0.win 5).blk t).view.emb (ix3 (0 : Fin 1) a j)))
  rw [emb5, after0_5, outsAt0_kv]
  refine (Pay.pay1_apply _ a j).trans ?_
  refine (acc_closed V c t.val t.isLt a j).trans ?_
  show kvPre (Xof V c) (WKof V c) (WVof V c) (bOf t) (t.val % 8 + 1) a j = kv (Xof V c) (WKof V c) (WVof V c) (bOf t) a j
  rw [h7]
  exact kvPre_eight _ _ _ _ a j

theorem flushed5_eq (c : Dev nD) (t : Fin cfg0.N) (hf : (cfg0.win 5).flush t = true) :
    (dat0 V c).flushed 5 t = ((cfg0.win 5).blk t).view.read (Elt Ideal) (KVarr (Xof V c) (WKof V c) (WVof V c)) := by
  funext y
  have hy : y = ix3 (n0 := 1) (n1 := 1024) (n2 := 1024) 0 (y 1) (y 2) := by
    funext d
    match d with
    | ⟨0, _⟩ => exact Fin.ext (by have h : (y 0).val < 1 := (y 0).isLt; show (y 0).val = 0; omega)
    | ⟨1, _⟩ => rfl
    | ⟨2, _⟩ => rfl
  rw [hy]
  exact flushed5_apply V c t hf (y 1) (y 2)

/-! ## Every index is written back by some point -/

theorem mem_blk4 (t : Fin cfg0.N) (i : S4x4096x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v3_0).slice (win0_4.rect t)).set ↔ _
  rw [View.set_slice_whole, Rect.mem_set_unit]
  exact Iff.rfl

theorem mem_blk5 (t : Fin cfg0.N) (i : S4x1024x1024.Idx) :
    i ∈ ((cfg0.win 5).blk t).view.set ↔ ∀ a : Fin 3, win0_5.index t a * S1x1024x1024.size a ≤ (i a).val ∧ (i a).val < win0_5.index t a * S1x1024x1024.size a + S1x1024x1024.size a := by
  show i ∈ ((View.whole main_v3_1).slice (win0_5.rect t)).set ↔ _
  rw [View.set_slice_whole, Rect.mem_set_unit]
  exact Iff.rfl

/-- Row `s` of batch `b` is in the q block of point `8·b + s / 512`, which writes back. -/
theorem cover4 (i : S4x4096x1024.Idx) :
    ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 1024 := (i 2).isLt
  have hN := N32
  obtain ⟨t, tv⟩ : ∃ t : Fin cfg0.N, t.val = 8 * (i 0).val + (i 1).val / 512 := ⟨⟨_, by omega⟩, rfl⟩
  obtain ⟨-, -, -, -, -, -, -, -, -, e0, e1, e2, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; rw [e0, tv]; omega
  | ⟨1, _⟩ => show win0_4.index t (1 : Fin 3) * 512 ≤ (i 1).val ∧ (i 1).val < win0_4.index t (1 : Fin 3) * 512 + 512; rw [e1, tv]; omega
  | ⟨2, _⟩ => show win0_4.index t (2 : Fin 3) * 1024 ≤ (i 2).val ∧ (i 2).val < win0_4.index t (2 : Fin 3) * 1024 + 1024; rw [e2]; omega

/-- Batch `b`'s matrix is the `kᵀ v` block of point `8·b + 7`, the batch's last tile, which writes back. -/
theorem cover5 (i : S4x1024x1024.Idx) :
    ∃ t : Fin cfg0.N, (cfg0.win 5).flush t = true ∧ i ∈ ((cfg0.win 5).blk t).view.set := by
  have h0 : (i 0).val < 4 := (i 0).isLt
  have h1 : (i 1).val < 1024 := (i 1).isLt
  have h2 : (i 2).val < 1024 := (i 2).isLt
  have hN := N32
  obtain ⟨t, tv⟩ : ∃ t : Fin cfg0.N, t.val = 8 * (i 0).val + 7 := ⟨⟨_, by omega⟩, rfl⟩
  obtain ⟨-, -, -, -, -, -, -, -, -, -, -, -, e0, e1, e2⟩ := idx_facts t
  refine ⟨t, (flush0_5 t).mpr (by rw [tv]; omega), ?_⟩
  rw [mem_blk5]
  intro a
  match a with
  | ⟨0, _⟩ => show win0_5.index t (0 : Fin 3) * 1 ≤ (i 0).val ∧ (i 0).val < win0_5.index t (0 : Fin 3) * 1 + 1; rw [e0, tv]; omega
  | ⟨1, _⟩ => show win0_5.index t (1 : Fin 3) * 1024 ≤ (i 1).val ∧ (i 1).val < win0_5.index t (1 : Fin 3) * 1024 + 1024; rw [e1]; omega
  | ⟨2, _⟩ => show win0_5.index t (2 : Fin 3) * 1024 ≤ (i 2).val ∧ (i 2).val < win0_5.index t (2 : Fin 3) * 1024 + 1024; rw [e2]; omega

/-! ## The two arrays after the call -/

/-- The stored projection ends as `x·w_q`. -/
theorem arrAt4 (c : Dev nD) (x : SX.Idx → EReal) (wq wk wv : SW.Idx → EReal)
    (hx : (V c main_arg0 : S4x4096x1024.Idx → EReal) = x) (hq : (V c main_v0 : S1024x1024.Idx → EReal) = wq)
    (hk : (V c main_v1 : S1024x1024.Idx → EReal) = wk) (hv : (V c main_v2 : S1024x1024.Idx → EReal) = wv) :
    ((dat0 V c).arrAt 4 cfg0.N : S4x4096x1024.Idx → EReal) = Qarr x wq := by
  subst hx hq
  exact (dat0 V c).arrAt_eq_of_cover 4 (Qarr (Xof V c) (WQof V c)) (fun t _ => flushed4_eq V c t) cover4

/-- The per-batch matrices end as `kᵀ v`. -/
theorem arrAt5 (c : Dev nD) (x : SX.Idx → EReal) (wq wk wv : SW.Idx → EReal)
    (hx : (V c main_arg0 : S4x4096x1024.Idx → EReal) = x) (hq : (V c main_v0 : S1024x1024.Idx → EReal) = wq)
    (hk : (V c main_v1 : S1024x1024.Idx → EReal) = wk) (hv : (V c main_v2 : S1024x1024.Idx → EReal) = wv) :
    ((dat0 V c).arrAt 5 cfg0.N : S4x1024x1024.Idx → EReal) = KVarr x wk wv := by
  subst hx hk hv
  exact (dat0 V c).arrAt_eq_of_cover 5 (KVarr (Xof V c) (WKof V c) (WVof V c)) (fun t hf => flushed5_eq V c t hf) cover5

end Cert.KernelIdeal.HandValue

end
-- ==== Proof.KIValue1.lean ====
/-
  The second call's output array after all its write-backs, as one function of the two arrays it reads.

  The grid has 4 batches × 4 row tiles; point `t` is batch `t / 4`, tile `t % 4`.  The stored projection's and the
  output's blocks of 1024 rows sit at (batch, tile), the per-batch matrix's block at the batch alone.  So the block
  of the projection at point `t` is rows `1024·(t % 4) …` of batch `t / 4`, the block of the matrices is batch
  `t / 4`'s whole matrix, and what the point writes back — the row-by-column product of the two, times 32 — is the
  same rows of that batch of `Yarr 32 Q KV`.  Every row of every batch lies in exactly such a block, and every
  point writes back, so the array ends as `Yarr 32 Q KV`.
-/
import proofs.«156419_j25701084299319_1_alg».proof.Proof.KIRegion1
import proofs.«156419_j25701084299319_1_alg».proof.Proof.Payloads
import proofs.«156419_j25701084299319_1_alg».proof.Proof.Spec2
import Idealize.ShloMosaic.Lib.Pipeline.Value

noncomputable section

open scoped BigOperators

namespace Cert.KernelIdeal.HandValue1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

-- the TensorCore's buffer contents when the call is entered
variable (V : (c : Dev nD) → (b : Ref sig .tc) → Buf (Elt Ideal) ((c : Thread nD τ).loc b))

/-- The zero offsets of a whole-block access, however spelt. -/
theorem hz : (![0, 0, 0] : Fin 3 → Nat) = fun _ => 0 := funext fun a => by fin_cases a <;> rfl

/-- The three index maps over the grid: point `t` is batch `t / 4`, tile `t % 4`; the projection and the output
    move with both, the per-batch matrices with the batch alone. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = t.val % 4 ∧ win1_2.index t (2 : Fin 3) = 0 :=
  (by decide +kernel : ∀ t : Fin grid1.N, _)

/-- The projection's block at point `t`: rows `1024·(t % 4) + ·` of batch `t / 4`. -/
theorem iblk_q_apply (c : Dev nD) (t : Fin cfg1.N) (y : S1x1024x1024.Idx) (k : S4x4096x1024.Idx)
    (h0 : (k 0).val = t.val / 4) (h1 : (k 1).val = 1024 * (t.val % 4) + (y 1).val) (h2 : (k 2).val = (y 2).val) :
    (iblk1 V c 0 t : S1x1024x1024.Idx → EReal) y = (V c main_v3_0 : S4x4096x1024.Idx → EReal) k := by
  obtain ⟨e0, e1, e2, -⟩ := idx_facts t
  have hy0 : (y 0).val < 1 := (y 0).isLt
  unfold iblk1
  rw [View.read_apply]
  show V c main_v3_0 _ = V c main_v3_0 _
  congr 1
  funext a
  apply Fin.ext
  match a with
  | ⟨0, _⟩ => show win1_0.index t (0 : Fin 3) * 1 + 1 * (y 0).val = (k 0).val; omega
  | ⟨1, _⟩ => show win1_0.index t (1 : Fin 3) * 1024 + 1 * (y 1).val = (k 1).val; omega
  | ⟨2, _⟩ => show win1_0.index t (2 : Fin 3) * 1024 + 1 * (y 2).val = (k 2).val; omega

/-- The matrices' block at point `t`: batch `t / 4`'s whole matrix. -/
theorem iblk_kv_apply (c : Dev nD) (t : Fin cfg1.N) (y : S1x1024x1024.Idx) (k : S4x1024x1024.Idx)
    (h0 : (k 0).val = t.val / 4) (h1 : (k 1).val = (y 1).val) (h2 : (k 2).val = (y 2).val) :
    (iblk1 V c 1 t : S1x1024x1024.Idx → EReal) y = (V c main_v4 : S4x1024x1024.Idx → EReal) k := by
  obtain ⟨-, -, -, e0, e1, e2, -⟩ := idx_facts t
  have hy0 : (y 0).val < 1 := (y 0).isLt
  unfold iblk1
  rw [View.read_apply]
  show V c main_v4 _ = V c main_v4 _
  congr 1
  funext a
  apply Fin.ext
  match a with
  | ⟨0, _⟩ => show win1_1.index t (0 : Fin 3) * 1 + 1 * (y 0).val = (k 0).val; omega
  | ⟨1, _⟩ => show win1_1.index t (1 : Fin 3) * 1024 + 1 * (y 1).val = (k 1).val; omega
  | ⟨2, _⟩ => show win1_1.index t (2 : Fin 3) * 1024 + 1 * (y 2).val = (k 2).val; omega

/-- Where the output's block at point `t` sits in the array: rows `1024·(t % 4) + ·` of batch `t / 4`. -/
theorem emb_out (t : Fin cfg1.N) (y : S1x1024x1024.Idx) :
    ((((cfg1.win 2).blk t).view.emb y) 0).val = t.val / 4
    ∧ ((((cfg1.win 2).blk t).view.emb y) 1).val = 1024 * (t.val % 4) + (y 1).val
    ∧ ((((cfg1.win 2).blk t).view.emb y) 2).val = (y 2).val := by
  obtain ⟨-, -, -, -, -, -, e0, e1, e2⟩ := idx_facts t
  have hy0 : (y 0).val < 1 := (y 0).isLt
  refine ⟨?_, ?_, ?_⟩
  · show win1_2.index t (0 : Fin 3) * 1 + 1 * (y 0).val = _; omega
  · show win1_2.index t (1 : Fin 3) * 1024 + 1 * (y 1).val = _; omega
  · show win1_2.index t (2 : Fin 3) * 1024 + 1 * (y 2).val = _; omega

/-- What point `t` writes back is block `t` of `Yarr 32 Q KV`. -/
theorem flushed_eq (c : Dev nD) (Q : Cert.Attn.SX.Idx → EReal) (KV : Cert.Attn.SK.Idx → EReal)
    (hQ : (V c main_v3_0 : S4x4096x1024.Idx → EReal) = Q) (hKV : (V c main_v4 : S4x1024x1024.Idx → EReal) = KV)
    (t : Fin cfg1.N) :
    (dat1 V c).flushed 2 t = ((cfg1.win 2).blk t).view.read (Elt Ideal) (Cert.Attn.Yarr ((32 : ℝ) : EReal) Q KV) := by
  show (cfg1.win 2).cut (grid1.coords t) ((dat1 V c).after 2 t) = _
  rw [after1_2]
  unfold out1_2
  rw [View.canon_unit_zero hz]
  simp only [View.ld_unit_zero (S := S1x1024x1024) hz]
  refine funext fun (j : S1x1024x1024.Idx) => ?_
  rw [View.read_apply]
  obtain ⟨u0, r, jj, rfl⟩ : ∃ (u0 : Fin 1) (r : Fin 1024) (jj : Fin 1024), j = ix3 u0 r jj := ⟨j 0, j 1, j 2, eq_ix3 j⟩
  obtain rfl : u0 = 0 := Subsingleton.elim _ _
  obtain ⟨o0, o1, o2⟩ := emb_out t (ix3 (0 : Fin 1) r jj)
  refine (Cert.Attn.Pay.k1_pay1_apply (iblk1 V c 0 t : Vec Ideal S1x1024x1024 .bf16) (iblk1 V c 1 t : Vec Ideal S1x1024x1024 .bf16) r jj).trans ?_
  have key : ∀ (qb kvb : S1x1024x1024.Idx → EReal), qb = iblk1 V c 0 t → kvb = iblk1 V c 1 t →
      ∀ i : S4x4096x1024.Idx, (i 0).val = t.val / 4 → (i 1).val = 1024 * (t.val % 4) + r.val → (i 2).val = jj.val →
      (∑ a : Fin 1024, qb (ix3 (0 : Fin 1) r a) * kvb (ix3 (0 : Fin 1) a jj)) * ((32 : ℝ) : EReal)
        = Cert.Attn.Yarr ((32 : ℝ) : EReal) Q KV i := by
    intro qb kvb eq ekv i i0 i1 i2
    subst eq ekv
    show _ = (∑ a : Fin 1024, Q (ix3 (i 0) (i 1) a) * KV (ix3 (i 0) a (i 2))) * _
    refine congrArg (· * (((32 : ℝ) : EReal))) (Finset.sum_congr rfl fun a _ => ?_)
    refine congrArg₂ (· * ·) ?_ ?_
    · exact (iblk_q_apply V c t (ix3 (0 : Fin 1) r a) (ix3 (i 0) (i 1) a) i0 i1 rfl).trans (congrFun hQ _)
    · exact (iblk_kv_apply V c t (ix3 (0 : Fin 1) a jj) (ix3 (i 0) a (i 2)) i0 rfl i2).trans (congrFun hKV _)
  exact key _ _ rfl rfl _ o0 o1 o2

/-- An index of the array is in point `t`'s block iff each coordinate is in the block's range on its axis. -/
theorem mem_blk (t : Fin cfg1.N) (i : S4x4096x1024.Idx) :
    i ∈ ((cfg1.win 2).blk t).view.set ↔ ∀ a : Fin 3, win1_2.index t a * S1x1024x1024.size a ≤ (i a).val
      ∧ (i a).val < win1_2.index t a * S1x1024x1024.size a + S1x1024x1024.size a := by
  show i ∈ ((View.whole main_v5).slice (win1_2.rect t)).set ↔ _
  rw [View.set_slice_whole, Rect.mem_set_unit]
  exact Iff.rfl

/-- Every index of the output lies in some point's block: row `s` of batch `b` in that of point `4·b + s / 1024`. -/
theorem cover (i : S4x4096x1024.Idx) :
    ∃ t : Fin cfg1.N, (cfg1.win 2).flush t = true ∧ i ∈ ((cfg1.win 2).blk t).view.set := by
  have hi0 : (i 0).val < 4 := (i 0).isLt
  have hi1 : (i 1).val < 4096 := (i 1).isLt
  have hi2 : (i 2).val < 1024 := (i 2).isLt
  have hN : cfg1.N = 16 := N_1
  let t : Fin cfg1.N := ⟨4 * (i 0).val + (i 1).val / 1024, by rw [hN]; omega⟩
  have ht : t.val = 4 * (i 0).val + (i 1).val / 1024 := rfl
  obtain ⟨-, -, -, -, -, -, e0, e1, e2⟩ := idx_facts t
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 1024 ≤ (i 2).val ∧ (i 2).val < win1_2.index t (2 : Fin 3) * 1024 + 1024; omega

/-- The output array after the call: `Yarr 32` of the stored projection and the per-batch matrices as the call
    finds them. -/
theorem arrAt2 (c : Dev nD) (Q : Cert.Attn.SX.Idx → EReal) (KV : Cert.Attn.SK.Idx → EReal)
    (hQ : (V c main_v3_0 : S4x4096x1024.Idx → EReal) = Q) (hKV : (V c main_v4 : S4x1024x1024.Idx → EReal) = KV) :
    ((dat1 V c).arrAt 2 cfg1.N : S4x4096x1024.Idx → EReal) = Cert.Attn.Yarr ((32 : ℝ) : EReal) Q KV :=
  (dat1 V c).arrAt_eq_of_cover 2 (Cert.Attn.Yarr ((32 : ℝ) : EReal) Q KV) (fun t _ => flushed_eq V c Q KV hQ hKV t) cover

end Cert.KernelIdeal.HandValue1

end
-- ==== Proof.KIValue.lean ====
/-
  The idealized kernel's result array as one function of the argument arrays.

  The first call leaves q = x·w_q and, per batch, kᵀ v; the host's format change between the calls is the identity at
  the ideal instance; the second call multiplies each row of q by the batch's kᵀ v and by 32. Put together the result
  array is the kernel's arrangement `G` of the arguments.
-/
import proofs.«156419_j25701084299319_1_alg».proof.Proof.KIHost
import proofs.«156419_j25701084299319_1_alg».proof.Proof.KIValue0b
import proofs.«156419_j25701084299319_1_alg».proof.Proof.KIValue1

set_option maxRecDepth 16384

noncomputable section

namespace Cert.KernelIdeal.HandValue

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ) (ρ : Dev nD → PrngReg)

/-- The second call's output array after the run is `G` of the launch contents of the four arguments. -/
theorem result_eq (c : Dev nD) :
    ((dat1 (V3 m ρ) c).arrAt 2 cfg1.N : S4x4096x1024.Idx → EReal)
      = Cert.Attn.G ((32 : ℝ) : EReal) (m ((c : Thread nD τ).loc main_arg0)) (m ((c : Thread nD τ).loc main_arg1))
          (m ((c : Thread nD τ).loc main_arg2)) (m ((c : Thread nD τ).loc main_arg3)) := by
  have h4 := arrAt4 (V1 m ρ) c (m ((c : Thread nD τ).loc main_arg0)) (m ((c : Thread nD τ).loc main_arg1))
    (m ((c : Thread nD τ).loc main_arg2)) (m ((c : Thread nD τ).loc main_arg3)) (V1_arg0 m ρ c) (V1_v0 m ρ c) (V1_v1 m ρ c) (V1_v2 m ρ c)
  have h5 := arrAt5 (V1 m ρ) c (m ((c : Thread nD τ).loc main_arg0)) (m ((c : Thread nD τ).loc main_arg1))
    (m ((c : Thread nD τ).loc main_arg2)) (m ((c : Thread nD τ).loc main_arg3)) (V1_arg0 m ρ c) (V1_v0 m ρ c) (V1_v1 m ρ c) (V1_v2 m ρ c)
  rw [Cert.KernelIdeal.HandValue1.arrAt2 (V3 m ρ) c _ _ ((V3_v3_0 m ρ c).trans h4) ((V3_v4 m ρ c).trans h5)]
  exact Cert.Attn.Yarr_eq_G _ _ _ _ _

end Cert.KernelIdeal.HandValue

end
-- ==== Proof.RefValue.lean ====
import proofs.«156419_j25701084299319_1_alg».proof.Proof.Gen.ReferenceIdeal.Run
import proofs.«156419_j25701084299319_1_alg».proof.Proof.Gen.ReferenceIdeal.Read
import proofs.«156419_j25701084299319_1_alg».proof.Proof.Spec
import Idealize.ShloMosaic.PureOps.Ideal
import Idealize.ShloMosaic.Lib.ValueIdx

/-
  The reference program's value, read one operation at a time, is the array `R 32`: three
  projections `x·w`, the product `q kᵀ` scaled by `√1024 = 32`, and its product with `v`.
-/

noncomputable section

open scoped BigOperators

namespace Cert.Attn.RefValue

open Idealize.ShloMosaic Idealize.ShloMosaic.ValueIdx Idealize.ShloMosaic.StableHlo Idealize.SL.Sem

/-- The word `0x44800000` denotes the real `1024`. -/
theorem ofBits_1024 : Ideal.ofBits .f32 0x44800000#32 = ((1024 : ℝ) : EReal) := by
  simp [Ideal.ofBits, Ideal.ieee, -EReal.coe_mul]; norm_num

/-- `√1024 = 32`. -/
theorem sqrt_1024 : Real.sqrt 1024 = 32 := by
  rw [show (1024 : ℝ) = 32 ^ 2 by norm_num]; exact Real.sqrt_sq (by norm_num)

/-- The reference's scalar: the square root of the constant `1024.0` is `32`. -/
theorem gamma_ref : (Host.sqrt (F := Ideal) (constant (F := Ideal) (⟨0, ![]⟩ : Shape) .f32 0x44800000#32)) ValueIdx.ix0 = ((32 : ℝ) : EReal) := by
  show FloatOps.hostUnary (F := Ideal) .sqrt (FloatOps.ofBits (F := Ideal) .f32 0x44800000#32) = _
  rw [Ideal.ofBits_def, Ideal.hostUnary_sqrt_def, ofBits_1024, Ideal.sqrt_coe, if_neg (by norm_num), sqrt_1024]

open Cert.ReferenceIdeal in
/-- A contraction of `x`'s last axis with a weight matrix's first is the projection `x·w`. -/
theorem proj_v0 (x0 : (⟨S4x4096x1024, .f32⟩ : BufTy).Contents (Elt Ideal)) (w : (⟨S1024x1024, .f32⟩ : BufTy).Contents (Elt Ideal))
    (i : S4x4096x1024.Idx) :
    Read.val_main_v0 (F := Ideal) x0 w i = proj x0 w (i 0) (i 1) (i 2) := by
  rw [Read.val_main_v0_apply]
  unfold proj
  refine Finset.sum_congr rfl fun k _ => ?_
  have e1 : Read.lidx_main_v0 i k = ix3 (i 0) (i 1) k :=
    funext fun d => match d with | ⟨0, _⟩ => rfl | ⟨1, _⟩ => rfl | ⟨2, _⟩ => rfl
  have e2 : Read.ridx_main_v0 i k = ix2 k (i 2) :=
    funext fun d => match d with | ⟨0, _⟩ => rfl | ⟨1, _⟩ => rfl
  rw [e1, e2]
  rfl

open Cert.ReferenceIdeal in
theorem proj_v1 (x0 : (⟨S4x4096x1024, .f32⟩ : BufTy).Contents (Elt Ideal)) (w : (⟨S1024x1024, .f32⟩ : BufTy).Contents (Elt Ideal))
    (i : S4x4096x1024.Idx) :
    Read.val_main_v1 (F := Ideal) x0 w i = proj x0 w (i 0) (i 1) (i 2) := proj_v0 x0 w i

open Cert.ReferenceIdeal in
theorem proj_v2 (x0 : (⟨S4x4096x1024, .f32⟩ : BufTy).Contents (Elt Ideal)) (w : (⟨S1024x1024, .f32⟩ : BufTy).Contents (Elt Ideal))
    (i : S4x4096x1024.Idx) :
    Read.val_main_v2 (F := Ideal) x0 w i = proj x0 w (i 0) (i 1) (i 2) := proj_v0 x0 w i

open Cert.ReferenceIdeal in
/-- The reference program computes `((q kᵀ)·32)·v`. -/
theorem ref_eq_R (x0 : (⟨S4x4096x1024, .f32⟩ : BufTy).Contents (Elt Ideal)) (x1 x2 x3 : (⟨S1024x1024, .f32⟩ : BufTy).Contents (Elt Ideal)) :
    Cert.ReferenceIdeal.Read.val_main_v7 (F := Ideal) x0 x1 x2 x3 = Cert.Attn.R ((32 : ℝ) : EReal) x0 x1 x2 x3 := by
  funext i
  obtain ⟨b, t, j, rfl⟩ : ∃ b t j, i = ValueIdx.ix3 b t j := ⟨i 0, i 1, i 2, ValueIdx.eq_ix3 i⟩
  rw [Read.val_main_v7_apply]
  show _ = R3 _ x0 x1 x2 x3 b t j
  unfold R3
  refine Finset.sum_congr rfl fun s _ => ?_
  have hγ : Read.val_main_v3 (F := Ideal) (Read.idx_main_v5 (Read.lidx_main_v7 (ValueIdx.ix3 b t j) s)) = ((32 : ℝ) : EReal) := gamma_ref
  rw [Read.val_main_v6_apply, Read.val_main_v4_apply, Read.val_main_v5_apply, hγ, Ideal.mulf_def, proj_v2]
  simp only [proj_v0, proj_v1]
  rfl

end Cert.Attn.RefValue

end
-- ==== Proof.Finite.lean ====
/-
  The precondition read back: every entry of the four inputs is a real number.

  The precondition is the conjunction, over the four inputs, of "all entries satisfy |x| < +∞".  Each
  conjunct is a reduction by `and` over all axes; its being 1 gives the comparison at every index, and
  on the extended reals |x| < ⊤ excludes both ⊥ and ⊤.
-/
import proofs.«156419_j25701084299319_1_alg».proof.Pre_finite_inputs
import proofs.«156419_j25701084299319_1_alg».proof.Proof.Gen.Pre_finite_inputs
import Idealize.ShloMosaic.Lib.ReduceAll
import Idealize.ShloMosaic.Lib.ValueIdx
import Idealize.ShloMosaic.PureOps.Ideal

noncomputable section

namespace Cert.Attn.Finite

open Idealize.ShloMosaic

/-- The scalar shape has one index. -/
instance : Subsingleton Cert.Pre_finite_inputs.S_.Idx := ⟨fun a b => funext fun d => d.elim0⟩

/-- The pattern of +∞ denotes ⊤. -/
theorem inf_eq_top : Ideal.ofBits .f32 0x7F800000#32 = (⊤ : EReal) := by
  simp [Ideal.ofBits, Ideal.ieee]

/-- An extended real whose absolute value is strictly below ⊤ is a real. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One input's share: the comparison |x| < +∞ holding at every index makes every entry real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x)
            (broadcastInDim s ![] hb (constant (F := Ideal) Cert.Pre_finite_inputs.S_ .f32 0x7F800000#32)))
          init hr hu j = 1#1) :
    ∀ i, ∃ r : ℝ, x i = (r : EReal) := by
  intro i
  have hi := Host.reduce_andi_all _ init hr hu j e i
  apply real_of_abs_lt_top
  rw [← inf_eq_top]
  exact hi

open Cert.Pre_finite_inputs in
theorem real_of_pre [Cert.Pre_finite_inputs.Facts] (x0 : FVec Ideal S4x4096x1024 .f32) (x1 x2 x3 : FVec Ideal S1024x1024 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all x0 _ _ _ _ _ h0', real_of_all x1 _ _ _ _ _ h1, real_of_all x2 _ _ _ _ _ h2,
    real_of_all x3 _ _ _ _ _ h3⟩

end Cert.Attn.Finite

end
-- ==== Proof.lean ====
/-
  Softmax-free attention, y = (q kᵀ)·√d · v, against a kernel that uses associativity: per batch it forms the
  1024×1024 matrix kᵀ v once (accumulated over eight tiles of 512 rows in a first pallas_call, which also stores
  q = x·w_q) and then q·(kᵀ v)·32 in a second pallas_call. √1024 = 32 exactly, format changes are the identity on the
  extended reals, and with every input finite all sums are finite sums of reals, where
      Σ_s ((Σ_a q_a k_{s,a})·γ)·v_s  =  (Σ_a q_a (Σ_s k_{s,a} v_s))·γ
  by distributivity and exchanging the two finite sums.
  The three frames: both kernel programs run through one hand-written frame proof, generic in the float instance (the
  word-level copy is laid out from the idealized one by substituting the namespace); the reference's frame is its run
  read back. No operation was rewritten by the ideal pass, so `preserves` has nothing to state.
-/
import proofs.«156419_j25701084299319_1_alg».proof.Defs
import proofs.«156419_j25701084299319_1_alg».proof.Proof.Gen.Kernel
import proofs.«156419_j25701084299319_1_alg».proof.Proof.Gen.KernelIdeal
import proofs.«156419_j25701084299319_1_alg».proof.Proof.Gen.ReferenceIdeal
import proofs.«156419_j25701084299319_1_alg».proof.Proof.Gen.ReferenceIdeal.Run
import proofs.«156419_j25701084299319_1_alg».proof.Proof.Gen.ReferenceIdeal.Read
import proofs.«156419_j25701084299319_1_alg».proof.Proof.Gen.Pre_finite_inputs
import proofs.«156419_j25701084299319_1_alg».proof.Proof.KRun
import proofs.«156419_j25701084299319_1_alg».proof.Proof.KIValue
import proofs.«156419_j25701084299319_1_alg».proof.Proof.RefValue
import proofs.«156419_j25701084299319_1_alg».proof.Proof.Algebra
import proofs.«156419_j25701084299319_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the array `G` of the arguments: the kernel by its run read through the two calls, the
    reference by its run read operation by operation and the algebraic law, which is where finiteness is used. -/
theorem algebraic : Cert.algebraic_KernelIdeal_ReferenceIdeal := by
  intro m ρ m' ρ' hpre hagree
  refine ⟨fun c => Cert.Attn.G ((32 : ℝ) : EReal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.HandValue.result_eq m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨hx, hq, hk, hv⟩ := Cert.Attn.Finite.real_of_pre _ _ _ _ (hpre c)
    show _ = Cert.Attn.G _ _ _ _ _
    rw [Cert.ReferenceIdeal.Read.val_main_v7_eq, Cert.Attn.RefValue.ref_eq_R, (hagree c).1, (hagree c).2.1, (hagree c).2.2.1, (hagree c).2.2.2]
    exact Cert.Attn.R_eq_G _ _ _ _ _ ⟨32, rfl⟩ hx hq hk hv

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
